-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v62_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v62_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S256x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S5000x128 : Shape := ⟨2, ![5000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S4096x128 : Shape := ⟨2, ![4096, 128]⟩
abbrev S50000x1 : Shape := ⟨2, ![50000, 1]⟩

abbrev nBuf : Space → Nat
  | .hbm => 99
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .bf16⟩
  | .hbm, ⟨11, _⟩ => ⟨S128x128, .bf16⟩
  | .hbm, ⟨12, _⟩ => ⟨S50000x128, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S800000, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .bf16⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .bf16⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S800000x1, .f32⟩
  | .hbm, ⟨77, _⟩ => ⟨S800000x128, .f32⟩
  | .hbm, ⟨78, _⟩ => ⟨S800000x128, .f32⟩
  | .hbm, ⟨79, _⟩ => ⟨S800000x128, .bf16⟩
  | .hbm, ⟨80, _⟩ => ⟨S128x128, .f32⟩
  | .hbm, ⟨81, _⟩ => ⟨S128x128, .bf16⟩
  | .hbm, ⟨82, _⟩ => ⟨S128x128, .f32⟩
  | .hbm, ⟨83, _⟩ => ⟨S128x128, .bf16⟩
  | .hbm, ⟨84, _⟩ => ⟨S1x128, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S50000, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .local _ .vmem, ⟨0, _⟩ => ⟨S5000x128, .bf16⟩
  | .local _ .vmem, ⟨1, _⟩ => ⟨S5000x128, .bf16⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S128x128, .bf16⟩
  | .local _ .vmem, ⟨12, _⟩ => ⟨S128x128, .bf16⟩
  | .local _ .vmem, ⟨13, _⟩ => ⟨S1x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62_0 : Ref sig .tc := ⟨.hbm, 85, rfl⟩
abbrev main_v62_1 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![196], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  slices_S256x128_S128x128_0_0 : S256x128.Slices ![0, 0] S128x128
  slices_S256x128_S128x128_128_0 : S256x128.Slices ![128, 0] S128x128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  dot_S4096x128_S128x128_S4096x128_1_0_0_1_n_n_wf : DotDims.WF S4096x128 S128x128 S4096x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S4096x128.size a < S800000x128.size a
  hwx1_0 : ∀ i : grid1.Coords, EltTy.bits .bf16 = 32 ∨ (Rect.unit (s := S800000x128) (fun a => cc1_transform_0 i a * S4096x128.size a) (fun a => (Pipeline.Clip.of (cc1_transform_0 i a) (S4096x128.size a) (S800000x128.size a)).extent (S4096x128.size a)) fun a => Pipeline.Clip.inb (Pipeline.Clip.ok_of (hstart1_0 i a))).WholeWords (EltTy.packing .bf16)
  hwxs1_0 : ∀ i : grid1.Coords, EltTy.bits .bf16 = 32 ∨ (Rect.unit (s := S4096x128) (fun _ => 0) (fun a => (Pipeline.Clip.of (cc1_transform_0 i a) (S4096x128.size a) (S800000x128.size a)).extent (S4096x128.size a)) fun a => (Nat.zero_add _).trans_le (Pipeline.Clip.extent_le (Pipeline.Clip.ok_of (hstart1_0 i a)))).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4096x128.size a < S800000x128.size a
  hwx1_1 : ∀ i : grid1.Coords, EltTy.bits .bf16 = 32 ∨ (Rect.unit (s := S800000x128) (fun a => cc1_transform_1 i a * S4096x128.size a) (fun a => (Pipeline.Clip.of (cc1_transform_1 i a) (S4096x128.size a) (S800000x128.size a)).extent (S4096x128.size a)) fun a => Pipeline.Clip.inb (Pipeline.Clip.ok_of (hstart1_1 i a))).WholeWords (EltTy.packing .bf16)
  hwxs1_1 : ∀ i : grid1.Coords, EltTy.bits .bf16 = 32 ∨ (Rect.unit (s := S4096x128) (fun _ => 0) (fun a => (Pipeline.Clip.of (cc1_transform_1 i a) (S4096x128.size a) (S800000x128.size a)).extent (S4096x128.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S4096x128.size a < S800000x128.size a
  hwx1_2 : ∀ i : grid1.Coords, EltTy.bits .bf16 = 32 ∨ (Rect.unit (s := S800000x128) (fun a => cc1_transform_2 i a * S4096x128.size a) (fun a => (Pipeline.Clip.of (cc1_transform_2 i a) (S4096x128.size a) (S800000x128.size a)).extent (S4096x128.size a)) fun a => Pipeline.Clip.inb (Pipeline.Clip.ok_of (hstart1_2 i a))).WholeWords (EltTy.packing .bf16)
  hwxs1_2 : ∀ i : grid1.Coords, EltTy.bits .bf16 = 32 ∨ (Rect.unit (s := S4096x128) (fun _ => 0) (fun a => (Pipeline.Clip.of (cc1_transform_2 i a) (S4096x128.size a) (S800000x128.size a)).extent (S4096x128.size a)) fun a => (Nat.zero_add _).trans_le (Pipeline.Clip.extent_le (Pipeline.Clip.ok_of (hstart1_2 i a)))).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hstart1_6 : ∀ (i : grid1.Coords) a, cc1_transform_6 i a * S4096x128.size a < S800000x128.size a
  hwx1_6 : ∀ i : grid1.Coords, EltTy.bits .f32 = 32 ∨ (Rect.unit (s := S800000x128) (fun a => cc1_transform_6 i a * S4096x128.size a) (fun a => (Pipeline.Clip.of (cc1_transform_6 i a) (S4096x128.size a) (S800000x128.size a)).extent (S4096x128.size a)) fun a => Pipeline.Clip.inb (Pipeline.Clip.ok_of (hstart1_6 i a))).WholeWords (EltTy.packing .f32)
  hwxs1_6 : ∀ i : grid1.Coords, EltTy.bits .f32 = 32 ∨ (Rect.unit (s := S4096x128) (fun _ => 0) (fun a => (Pipeline.Clip.of (cc1_transform_6 i a) (S4096x128.size a) (S800000x128.size a)).extent (S4096x128.size a)) fun a => (Nat.zero_add _).trans_le (Pipeline.Clip.extent_le (Pipeline.Clip.ok_of (hstart1_6 i a)))).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hstart1_7 : ∀ (i : grid1.Coords) a, cc1_transform_7 i a * S4096x128.size a < S800000x128.size a
  hwx1_7 : ∀ i : grid1.Coords, EltTy.bits .f32 = 32 ∨ (Rect.unit (s := S800000x128) (fun a => cc1_transform_7 i a * S4096x128.size a) (fun a => (Pipeline.Clip.of (cc1_transform_7 i a) (S4096x128.size a) (S800000x128.size a)).extent (S4096x128.size a)) fun a => Pipeline.Clip.inb (Pipeline.Clip.ok_of (hstart1_7 i a))).WholeWords (EltTy.packing .f32)
  hwxs1_7 : ∀ i : grid1.Coords, EltTy.bits .f32 = 32 ∨ (Rect.unit (s := S4096x128) (fun _ => 0) (fun a => (Pipeline.Clip.of (cc1_transform_7 i a) (S4096x128.size a) (S800000x128.size a)).extent (S4096x128.size a)) fun a => (Nat.zero_add _).trans_le (Pipeline.Clip.extent_le (Pipeline.Clip.ok_of (hstart1_7 i a)))).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v38) S4096x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v45) S4096x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v56) S4096x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v58) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpecClip (Memref.whole main_v62_0) S4096x128.size cc1_transform_6 reads1_6 true false 2 stage1_6 sem1_6
    hrank1 hreads1_6 hstart1_6 nbuf1_6 (Memref.isWhole_whole _) hwx1_6 hwxs1_6 hstage1_6

abbrev win1_7 : Pipeline.Window sig grid1 :=
  Pipeline.Window.ofSpecClip (Memref.whole main_v62_1) S4096x128.size cc1_transform_7 reads1_7 true false 2 stage1_7 sem1_7
    hrank1 hreads1_7 hstart1_7 nbuf1_7 (Memref.isWhole_whole _) hwx1_7 hwxs1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S50000 : Shape := ⟨1, ![50000]⟩
abbrev S50000x1 : Shape := ⟨2, ![50000, 1]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S800000x256, .f32⟩
  | .hbm, ⟨29, _⟩ => ⟨S800000x128, .f32⟩
  | .hbm, ⟨30, _⟩ => ⟨S1x128, .f32⟩
  | .hbm, ⟨31, _⟩ => ⟨S800000x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S800000, .f32⟩
  | .hbm, ⟨36, _⟩ => ⟨S_, .f32⟩
  | .hbm, ⟨37, _⟩ => ⟨S50000, .f32⟩
  | .hbm, ⟨38, _⟩ => ⟨S800000x1, .i32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .i1⟩
  | .hbm, ⟨46, _⟩ => ⟨S50000, .f32⟩
  | .hbm, ⟨47, _⟩ => ⟨S_, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000, .f32⟩
  | .hbm, ⟨69, _⟩ => ⟨S800000, .f32⟩
  | .hbm, ⟨70, _⟩ => ⟨S50000x128, .f32⟩
  | .hbm, ⟨71, _⟩ => ⟨S800000x1, .f32⟩
  | .hbm, ⟨72, _⟩ => ⟨S800000x128, .f32⟩
  | .hbm, ⟨73, _⟩ => ⟨S800000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S50000, .f32⟩
  | .hbm, ⟨89, _⟩ => ⟨S50000x1, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_call0_v0 : Ref sig .tc := ⟨.hbm, 48, rfl⟩
abbrev main_call0_v1 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S50000 : S_.BroadcastsInDim S50000 (![] : Fin 0 → Fin S50000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRegion0.lean ====
/- REGION 0 of @main (the first pallas_call: a blocked matmul, 10 grid points), stated at a PARAMETER `V`: the
   TensorCore's buffer contents when the region is entered. Per window its block at a point; what the body leaves
   in the result window's staging buffer; the body's triple; the pipeline's proof data; the body obligation.
   Generic in the float family. -/
import proofs.«137016_j9826885173720_1_alg».proof.Proof.Gen.Kernel.Launch
import proofs.«137016_j9826885173720_1_alg».proof.Proof.Gen.Kernel.Skeleton
import proofs.«137016_j9826885173720_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`): rows
    `5000 t .. 5000 t + 4999` of the left operand (window 0) and of the result (window 2), the whole
    128 x 128 right operand (window 1). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The whole 5000 x 128 block: the load of the left operand and the store of the result. -/
abbrev r0_0 : Rect S5000x128 := Rect.unit (s := S5000x128) ![0, 0] S5000x128.size inb_S5000x128_S5000x128_0_0
/-- The whole 128 x 128 right operand. -/
abbrev r0_1 : Rect S128x128 := Rect.unit (s := S128x128) ![0, 0] S128x128.size inb_S128x128_S128x128_0_0

/-! ## What the body leaves in the result window's buffer -/

/-- Window 2's staging buffer after the body, from the two input blocks: its one store, of the product of the
    left block by the right operand accumulated into zero. -/
def out0_2 (x0 : Vec F S5000x128 .bf16) (x1 : Vec F S128x128 .bf16) : Vec F S5000x128 .f32 :=
  View.canon [⟨r0_0, k0_pay1 (View.ld x0 r0_0) (View.ld x1 r0_1)⟩]

/-! ## The pipeline's proof data -/

/-- The proof data of pipeline 0 on core `c`: the arrays as the region finds them; after the body at point `t`
    each input's buffer still at its block and the result's at `out0_2` of the two input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The inputs' staging buffers at a point -/

/-- Input window 0's current staging buffer holds its block at every point, for ANY proof data whose array is
    `V`'s (`hA`) and whose body leaves the block in place (`hafter`): the window is fetched at every point, uncut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right operand, whole) is fetched at point 0 only; at a later point its block index has
    not moved, so the buffer still holds the block fetched at point 0, which is every point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole 5000 x 128 buffer, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the two inputs' at read contents `x0`, `x1` and the result's at
    anything, runs to the continuation holding the inputs' as they were and the result's at `out0_2 x0 x1`: it
    loads both inputs, loads the result buffer without using the value, and stores the product over all of it. -/
theorem sound_kernel0 (c : Dev nD) (E : Set ℕ) (i : grid0.Coords)
    (arg1 : Memref sig .tc .vmem S5000x128 .bf16) (harg1 : arg1.IsWhole)
    (arg2 : Memref sig .tc .vmem S128x128 .bf16) (harg2 : arg2.IsWhole)
    (arg3 : Memref sig .tc .vmem S5000x128 .f32) (harg3 : arg3.IsWhole)
    (x0 : Vec F S5000x128 .bf16) (x1 : Vec F S128x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and the three windows' current
    staging buffers, each at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same, each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' memrefs hold their blocks (`before0_0`, `before0_1`), the result's holds
    something, so the body's triple applies; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1.lean ====
/-
  REGION 1 of the word-level program, the body's half of its frame: the second pipeline (196 points; three
  row-block inputs whose last block overhangs the 800000-row arrays, three whole-array inputs fetched once, two
  row-block results). At the word level a matrix product is opaque in its whole left operand, so what the body
  stores into the two result windows depends on the staging rows past the arrays' end, which nothing names: the
  proof data say nothing of the result windows (they are forgotten), and state the six input windows exactly.
-/
import proofs.«137016_j9826885173720_1_alg».proof.Proof.Gen.Kernel.Launch
import proofs.«137016_j9826885173720_1_alg».proof.Proof.Gen.Kernel.Skeleton
import proofs.«137016_j9826885173720_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows the proof data forget -/

/-- The two result windows (6 and 7) are forgotten; the six input windows are stated exactly. -/
def fgt1 : Fin cfg1.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true

/-! ## The windows' blocks -/

/-- Window w's block at point t, read off its array as the region finds it: for a cut block, its rows inside
    the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The pipeline's proof data -/

/-- The proof data of pipeline 1 on core c: the arrays as the region finds them; after the body each
    row-block input's buffer at its block, filled out past the array's end with the zero word (nothing reads the
    filler: those windows are stated on the rows inside the array only), each whole-array input's at its block,
    each result's at the zero word (forgotten: nothing reads it); the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => (cfg1.win 0).fill (cfg1.grid.coords t) (fun _ => Scalar.ofBits .bf16 0x0000#16) (iblk1 V c 0 t)
    | ⟨1, _⟩ => (cfg1.win 1).fill (cfg1.grid.coords t) (fun _ => Scalar.ofBits .bf16 0x0000#16) (iblk1 V c 1 t)
    | ⟨2, _⟩ => (cfg1.win 2).fill (cfg1.grid.coords t) (fun _ => Scalar.ofBits .bf16 0x0000#16) (iblk1 V c 2 t)
    | ⟨3, _⟩ => iblk1 V c 3 t
    | ⟨4, _⟩ => iblk1 V c 4 t
    | ⟨5, _⟩ => iblk1 V c 5 t
    | ⟨6, _⟩ => fun _ => Scalar.ofBits .f32 0x00000000#32
    | ⟨7, _⟩ => fun _ => Scalar.ofBits .f32 0x00000000#32
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! ## The body's triple -/

set_option maxHeartbeats 1000000 in
/-- The kernel body on whole staging memrefs — the six inputs' at read contents, the two results' at anything —
    runs to the continuation holding the inputs' as they were and each result's at some contents: the printed
    function is its skeleton, a straight run of eight loads and two whole stores; no input is written, and of
    what the stores leave nothing is said. -/
theorem sound_kernel1 (c : Dev nD) (E : Set ℕ) (i : grid1.Coords)
    (arg1 : Memref sig .tc .vmem S4096x128 .bf16) (harg1 : arg1.IsWhole) (arg2 : Memref sig .tc .vmem S4096x128 .bf16) (harg2 : arg2.IsWhole)
    (arg3 : Memref sig .tc .vmem S4096x128 .bf16) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S4096x128 .f32) (harg7 : arg7.IsWhole) (arg8 : Memref sig .tc .vmem S4096x128 .f32) (harg8 : arg8.IsWhole)
    (x0 x1 x2 : Vec F S4096x128 .bf16) (x3 x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ X, owns (c : Thread nD τ) arg7 fullShare X) ∗ (∃ X, owns (c : Thread nD τ) arg8 fullShare X)) -∗ K ⟨⟩))
      ⊢ wp frame (wpE (defs₀ (F := F)) Variants.none c none) E
          (cc1__edge_kernel i arg1 harg1 arg2 harg2 arg3 harg3 arg4 harg4 arg5 harg5 arg6 harg6 arg7 harg7 arg8 harg8) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; iexists _; isplitr
    swap; · iexact H6
    ipureintro; rfl
  · iexists _; iexists _; isplitr
    swap; · iexact H7
    ipureintro; rfl

/-! ## What the body leaves and finds, window by window -/

/-- What the body leaves in a row-block input's buffer: its block, filled out with the zero word. -/
theorem after1_0 (c : Dev nD) (t : Fin cfg1.N) : (dat1 V c).after 0 t
    = (cfg1.win 0).fill (cfg1.grid.coords t) (fun _ => Scalar.ofBits .bf16 0x0000#16) (iblk1 V c 0 t) := by dsimp only [dat1]
theorem after1_1 (c : Dev nD) (t : Fin cfg1.N) : (dat1 V c).after 1 t
    = (cfg1.win 1).fill (cfg1.grid.coords t) (fun _ => Scalar.ofBits .bf16 0x0000#16) (iblk1 V c 1 t) := by dsimp only [dat1]
theorem after1_2 (c : Dev nD) (t : Fin cfg1.N) : (dat1 V c).after 2 t
    = (cfg1.win 2).fill (cfg1.grid.coords t) (fun _ => Scalar.ofBits .bf16 0x0000#16) (iblk1 V c 2 t) := by dsimp only [dat1]
/-- What it leaves in a whole-array input's buffer: the array. -/
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-- A row-block input is fetched at every point: when the body runs its buffer holds the block on the rows the
    fetch lands (all 4096 but at the last point, where it lands the 1280 rows inside the array) and d, any
    contents, on the rest. -/
theorem before1_0 (c : Dev nD) (t : Fin cfg1.N) (d) :
    (dat1 V c).before 0 t d = (cfg1.win 0).fill (cfg1.grid.coords t) d (iblk1 V c 0 t) := by
  unfold Dat.before; rw [if_pos (fetch1_0 t)]
  unfold Dat.fetched Dat.blockOf iblk1; rw [A_eq1]
theorem before1_1 (c : Dev nD) (t : Fin cfg1.N) (d) :
    (dat1 V c).before 1 t d = (cfg1.win 1).fill (cfg1.grid.coords t) d (iblk1 V c 1 t) := by
  unfold Dat.before; rw [if_pos (fetch1_1 t)]
  unfold Dat.fetched Dat.blockOf iblk1; rw [A_eq1]
theorem before1_2 (c : Dev nD) (t : Fin cfg1.N) (d) :
    (dat1 V c).before 2 t d = (cfg1.win 2).fill (cfg1.grid.coords t) d (iblk1 V c 2 t) := by
  unfold Dat.before; rw [if_pos (fetch1_2 t)]
  unfold Dat.fetched Dat.blockOf iblk1; rw [A_eq1]

/-- A whole-array input is fetched at the first point only; its block index never moves and the body leaves the
    buffer as found, so at every point the buffer holds the array. -/
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

/-- A row-block input's buffer as the body leaves it, cut to the rows its transfers move, is its block. -/
theorem cut_after1_0 (c : Dev nD) (t : Fin cfg1.N) :
    (cfg1.win 0).cut (cfg1.grid.coords t) ((dat1 V c).after 0 t) = iblk1 V c 0 t := by
  rw [after1_0]; exact (cfg1.win 0).cut_fill _ _ _
theorem cut_after1_1 (c : Dev nD) (t : Fin cfg1.N) :
    (cfg1.win 1).cut (cfg1.grid.coords t) ((dat1 V c).after 1 t) = iblk1 V c 1 t := by
  rw [after1_1]; exact (cfg1.win 1).cut_fill _ _ _
theorem cut_after1_2 (c : Dev nD) (t : Fin cfg1.N) :
    (cfg1.win 2).cut (cfg1.grid.coords t) ((dat1 V c).after 2 t) = iblk1 V c 2 t := by
  rw [after1_2]; exact (cfg1.win 2).cut_fill _ _ _

/-! ## The body obligation, at a generic point -/

/-- What the body is called with at point t, the windows one by one: the inputs' buffers at what they then hold,
    the two results' at anything; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ X, owns (c : Thread nD τ) (st1_6 t) fullShare X)
    ∗ (∃ X, owns (c : Thread nD τ) (st1_7 t) fullShare X))

/-- and what it returns: a row-block input's buffer stated on the rows its transfers move, a whole-array
    input's exactly, a result's at some contents. -/
def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ (∃ d, owns (c : Thread nD τ) (st1_1 t) fullShare ((cfg1.win 1).fill (cfg1.grid.coords t) d ((cfg1.win 1).cut (cfg1.grid.coords t) ((dat1 V c).after 1 t))))
    ∗ (∃ d, owns (c : Thread nD τ) (st1_2 t) fullShare ((cfg1.win 2).fill (cfg1.grid.coords t) d ((cfg1.win 2).cut (cfg1.grid.coords t) ((dat1 V c).after 2 t))))
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (∃ X, owns (c : Thread nD τ) (st1_6 t) fullShare X)
    ∗ (∃ X, owns (c : Thread nD τ) (st1_7 t) fullShare X))

/-- The body at any point: the inputs' memrefs hold their blocks (a row-block one's filled out with whatever
    the fetch left past the array's end), so the body's triple applies; it writes no input, so each input's
    buffer is handed back as found, which on the rows its transfers move is its block; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    cut_after1_0, cut_after1_1, cut_after1_2, after1_3, after1_4, after1_5]
  iintro ⟨HΦ, Ho, ⟨%d0, H0⟩, ⟨%d1, H1⟩, ⟨%d2, H2⟩, ⟨%d3, H3⟩, ⟨%d4, H4⟩, ⟨%d5, H5⟩, H6, H7⟩
  iapply (sound_kernel1 c Set.univ _ _ _ _ _ _ _ _ _ _ _ _ _ _ _ _ _
    ((cfg1.win 0).fill (cfg1.grid.coords t) d0 (iblk1 V c 0 t)) ((cfg1.win 1).fill (cfg1.grid.coords t) d1 (iblk1 V c 1 t))
    ((cfg1.win 2).fill (cfg1.grid.coords t) d2 (iblk1 V c 2 t)) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexact H3
  isplitl [H4]; · iexact H4
  isplitl [H5]; · iexact H5
  isplitl [H6]; · iexact H6
  iexact H7

/-- The library's body obligation with the two result windows forgotten, at every point: no point is idle, the
    row-block windows are the loose ones. -/
theorem body_obligation1 (c : Dev nD) : BodyObligationLoose (dat1 (F := F) V c) (defs₀ (F := F)) Variants.none () Set.univ fgt1 := fun t => by
  rw [bigSep_W1, bigSep_W1]
  exact sound_body1 V c t

example (c : Dev nD) := (body_obligation1 (F := F) V c).toRForget

end Cert.Kernel.Hand
-- ==== Proof.KFrame.lean ====
/-
  THE FRAME of the word-level program: from any memory with zero counters every weakly fair execution of @main
  terminates, nothing faults, and the six argument arrays end as launched.

  @main is  hostOps0 ; region 0 ; hostOps1 ; hostOps1_1 ; hostOps1_2 ; region 1 ; hostOps2.  The contents of the
  core's unscoped buffers are named at every boundary up to region 1's entry (a fold from the launch memory: a host
  stretch's result, region 0's arrays at what its write-backs leave).  Region 1's three row-block inputs are cut at
  the arrays' end (800000 rows in blocks of 4096), the staging rows past the end hold words nothing names, and a
  word-level matrix product is opaque in its whole operand: what region 1 leaves in its two result arrays is not a
  function that can be written down.  So region 1's proof data are read RELATIONALLY with the two result windows
  forgotten, its exit hands its arrays at SOME contents, and the last host stretch (which reads one of them) runs
  under that existential.  No argument is an array of either region and no host operation writes one, so each
  argument reads back through the fold to its launch contents whatever those contents are.
-/
import proofs.«137016_j9826885173720_1_alg».proof.Proof.KRegion0
import proofs.«137016_j9826885173720_1_alg».proof.Proof.KRegion1
import proofs.«137016_j9826885173720_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold through @main, up to region 1's entry -/

/-- Core `c`'s buffers at launch. -/
abbrev W0 : Dev nD → Valuation τ sig (Elt F) := fun c b => m ((c : Dev nD), b)
/-- After `hostOps0` (region 0's entry). -/
abbrev W1 : Dev nD → Valuation τ sig (Elt F) := fun c => StableHlo.after hostOps0 (W0 m c)
/-- The same read at the TensorCore's references (what region 0's proof data take). -/
abbrev VE0 : (c : Dev nD) → (b : Ref sig .tc) → Buf (Elt F) ((c : Thread nD τ).loc b) := fun c b => W1 m c b
/-- At region 0's exit: its three arrays at what the pipeline leaves (the two operands as entered, the result's ten
    row blocks written back), every other buffer as entered. -/
def W2 (c : Dev nD) : Valuation τ sig (Elt F) :=
  Pipeline.withArrays spec0 c (W1 m c) fun w => (dat0 (VE0 m) c).arrAt w cfg0.N
theorem W2_arr (c : Dev nD) (w : Fin cfg0.W) :
    W2 m c (Proc.devRef .tc (Pipeline.arrRef spec0 w)) = (dat0 (VE0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev VX0 : (c : Dev nD) → (b : Ref sig .tc) → Buf (Elt F) ((c : Thread nD τ).loc b) := fun c b => W2 m c b
/-- At region 0's exit each of its arrays holds what the pipeline leaves and every other buffer what it held at entry. -/
theorem hF0 (c : Dev nD) (w : Fin cfg0.W) : (dat0 (VE0 m) c).arrAt w cfg0.N = VX0 m c (Pipeline.arrRef spec0 w) :=
  (W2_arr m c w).symm
theorem hrest0 (c : Dev nD) : ∀ b, b ∉ Finset.univ.image (Pipeline.arrRef spec0) → VX0 m c b = VE0 m c b :=
  fun b hb => W2_of_ne m c b fun w e => hb (Finset.mem_image.mpr ⟨w, Finset.mem_univ _, e⟩)
/-- After `hostOps1`, -/
abbrev W3 : Dev nD → Valuation τ sig (Elt F) := fun c => StableHlo.after hostOps1 (W2 m c)
/-- after `hostOps1_1`, -/
abbrev W4 : Dev nD → Valuation τ sig (Elt F) := fun c => StableHlo.after hostOps1_1 (W3 m c)
/-- after `hostOps1_2` (region 1's entry). -/
abbrev W5 : Dev nD → Valuation τ sig (Elt F) := fun c => StableHlo.after hostOps1_2 (W4 m c)
/-- The same read at the TensorCore's references (what region 1's proof data take). -/
abbrev VE1 : (c : Dev nD) → (b : Ref sig .tc) → Buf (Elt F) ((c : Thread nD τ).loc b) := fun c b => W5 m c b

/-- At region 1's exit, its eight arrays at contents `A` and every other buffer as entered. -/
abbrev WX1 (c : Dev nD) (A : (w : Fin cfg1.W) → Buf (Elt F) ((cfg1.win w).arr.view.loc (c : Thread nD τ))) : Valuation τ sig (Elt F) :=
  Pipeline.withArrays spec1 c (W5 m c) A
/-- and after `hostOps2`, the last boundary. -/
abbrev WEnd (c : Dev nD) (A : (w : Fin cfg1.W) → Buf (Elt F) ((cfg1.win w).arr.view.loc (c : Thread nD τ))) : Valuation τ sig (Elt F) :=
  StableHlo.after hostOps2 (WX1 m c A)

/-! ### The arguments end as launched

No host operation writes an argument and no argument is an array of a region's window (the regions read the
arguments' bf16 copies, slices and reshapes, which host operations make), so the fold at an argument's buffer walks
back to the launch memory, WHATEVER region 1 leaves in its arrays. -/

theorem WEnd_arg (c : Dev nD) (A : (w : Fin cfg1.W) → Buf (Elt F) ((cfg1.win w).arr.view.loc (c : Thread nD τ)))
    (r : Ref sig .tc) (h2 : r ∉ hostOps2_W) (hx1 : ∀ w, Pipeline.arrRef spec1 w ≠ r) (h12 : r ∉ hostOps1_2_W) (h11 : r ∉ hostOps1_1_W)
    (h1 : r ∉ hostOps1_W) (hx0 : ∀ w, Pipeline.arrRef spec0 w ≠ r) (h0 : r ∉ hostOps0_W) :
    WEnd m c A (Proc.devRef .tc r) = m ((c : Thread nD τ).loc r) :=
  calc WEnd m c A (Proc.devRef .tc r)
    _ = WX1 m c A (Proc.devRef .tc r) := StableHlo.after_of_writes_sub hostOps2 _ hostOps2_writes h2
    _ = W5 m c (Proc.devRef .tc r) := Pipeline.withArrays_of_ne spec1 c _ _ r hx1
    _ = W4 m c (Proc.devRef .tc r) := StableHlo.after_of_writes_sub hostOps1_2 _ hostOps1_2_writes h12
    _ = W3 m c (Proc.devRef .tc r) := StableHlo.after_of_writes_sub hostOps1_1 _ hostOps1_1_writes h11
    _ = W2 m c (Proc.devRef .tc r) := StableHlo.after_of_writes_sub hostOps1 _ hostOps1_writes h1
    _ = W1 m c (Proc.devRef .tc r) := W2_of_ne m c r hx0
    _ = W0 m c (Proc.devRef .tc r) := StableHlo.after_of_writes_sub hostOps0 _ hostOps0_writes h0
    _ = m ((c : Thread nD τ).loc r) := rfl

theorem WEnd_main_arg0 (c : Dev nD) (A) : WEnd m c A (Proc.devRef .tc main_arg0) = m ((c : Thread nD τ).loc main_arg0) :=
  WEnd_arg m c A main_arg0 (by decide) (by decide) (by decide) (by decide) (by decide) (by decide) (by decide)
theorem WEnd_main_arg1 (c : Dev nD) (A) : WEnd m c A (Proc.devRef .tc main_arg1) = m ((c : Thread nD τ).loc main_arg1) :=
  WEnd_arg m c A main_arg1 (by decide) (by decide) (by decide) (by decide) (by decide) (by decide) (by decide)
theorem WEnd_main_arg2 (c : Dev nD) (A) : WEnd m c A (Proc.devRef .tc main_arg2) = m ((c : Thread nD τ).loc main_arg2) :=
  WEnd_arg m c A main_arg2 (by decide) (by decide) (by decide) (by decide) (by decide) (by decide) (by decide)
theorem WEnd_main_arg3 (c : Dev nD) (A) : WEnd m c A (Proc.devRef .tc main_arg3) = m ((c : Thread nD τ).loc main_arg3) :=
  WEnd_arg m c A main_arg3 (by decide) (by decide) (by decide) (by decide) (by decide) (by decide) (by decide)
theorem WEnd_main_arg4 (c : Dev nD) (A) : WEnd m c A (Proc.devRef .tc main_arg4) = m ((c : Thread nD τ).loc main_arg4) :=
  WEnd_arg m c A main_arg4 (by decide) (by decide) (by decide) (by decide) (by decide) (by decide) (by decide)
theorem WEnd_main_arg5 (c : Dev nD) (A) : WEnd m c A (Proc.devRef .tc main_arg5) = m ((c : Thread nD τ).loc main_arg5) :=
  WEnd_arg m c A main_arg5 (by decide) (by decide) (by decide) (by decide) (by decide) (by decide) (by decide)

/-! ## The proof data family and the thread state -/

/-- The prefetched tables' admissible contents: no pipeline has a table. -/
abbrev adm₀ : (p : Fin 2) → (pcfgs (F := F) p).Adm := fun p => (cfgs p).toPCfg_adm
/-- Every pipeline's EXACT proof data, each at its region's entry contents (a literal `match`, so that the pinned
    configuration at a numeral reduces to the printed one). -/
def pdats : (p : Fin 2) → (c : Dev nD) → Dat τ (Elt F) Unit ℕ (UR sig nD τ) ℕ (Pipeline.pin (pcfgs (F := F)) adm₀ p) c
  | ⟨0, _⟩ => fun c => dat0 (VE0 m) c
  | ⟨1, _⟩ => fun c => dat1 (VE1 m) c
/-- The same read RELATIONALLY: region 0's says of what the body leaves exactly what the exact data name; region 1's
    says so of its six input windows and NOTHING of its two result windows. -/
def rdats : (p : Fin 2) → (c : Dev nD) → RDat τ (Elt F) Unit ℕ (UR sig nD τ) ℕ (Pipeline.pin (pcfgs (F := F)) adm₀ p) c
  | ⟨0, _⟩ => fun c => (dat0 (VE0 m) c).toR
  | ⟨1, _⟩ => fun c => (dat1 (VE1 m) c).toRForget fgt1
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The last host stretch, under the existential

Region 1 hands its arrays at SOME contents `A`. The last stretch `hostOps2` reads one of them; it runs from the
unscoped buffers at region 1's exit valuation for that `A` to `hostOps2`'s result from it, for whichever `A` it is. -/

/-- The thread state at region 1's exit: for some contents `A` of region 1's arrays, every unscoped buffer at the exit
    valuation for `A`, beside `R`. -/
abbrev TX1 (c : Dev nD) : sProp 𝕄 :=
  iprop(∃ A : (w : Fin cfg1.W) → Buf (Elt F) ((cfg1.win w).arr.view.loc (c : Thread nD τ)),
    StableHlo.held (c : Thread nD τ) (Pipeline.ucRefs τ sig) (WX1 m c A) ∗ R c)
/-- The thread state at the end: for some such `A`, every unscoped buffer at `hostOps2`'s result from that valuation. -/
abbrev TEnd (c : Dev nD) : sProp 𝕄 :=
  iprop(∃ A : (w : Fin cfg1.W) → Buf (Elt F) ((cfg1.win w).arr.view.loc (c : Thread nD τ)),
    StableHlo.held (c : Thread nD τ) (Pipeline.ucRefs τ sig) (WEnd m c A) ∗ R c)

set_option backward.isDefEq.respectTransparency.types false in
/-- `hostOps2` as a segment from `TX1` to `TEnd`: the existential opened, the ordinary segment at that `A` run, the
    existential closed again in the continuation. -/
def tailSeg : Pipeline.HostSeg (Name := ℕ) (U := UR sig nD τ) (pcfgs (F := F)) defs₀ 𝒱₀ L lv where
  prog := StableHlo.seq hostOps2
  pre c := TX1 m c
  post c := TEnd m c
  run c {β} k K := by
    iintro ⟨Hk, Hbd, Hpre, Hla⟩
    icases Hpre with ⟨%A, Hpre⟩
    have hpre : (iprop(StableHlo.held (c : Thread nD τ) (Pipeline.ucRefs τ sig) (WX1 m c A) ∗ R c) : sProp 𝕄)
        ⊢ (hseg hostOps2 hostOps2_sub hostOps2_fresh (fun _ => WX1 m c A)).pre c := .rfl
    have hpost : ((hseg hostOps2 hostOps2_sub hostOps2_fresh (fun _ => WX1 m c A)).post c : sProp 𝕄)
        ⊢ iprop(StableHlo.held (c : Thread nD τ) (Pipeline.ucRefs τ sig) (WEnd m c A) ∗ R c) := .rfl
    iapply ((hseg hostOps2 hostOps2_sub hostOps2_fresh (fun _ => WX1 m c A)).run c k K)
    isplitl [Hk]
    · iintro ⟨Hbd, Hpost⟩
      iapply Hk
      isplitl [Hbd]; · iexact Hbd
      iexists A; iapply hpost; iexact Hpost
    isplitl [Hbd]; · iexact Hbd
    isplitl [Hpre]; · iapply hpre; iexact Hpre
    iexact Hla

/-! ## The regions as segments -/

set_option backward.isDefEq.respectTransparency.types false in
/-- REGION 0 (the blocked matrix product) over the thread state: entered from every unscoped buffer at `W1`, left at
    `W2`. Its three arrays are split out of the unscoped buffers at entry and put back at exit at what the pipeline
    leaves: its proof data are exact, so read relationally the arrays "at some contents they may hold" ARE at the
    contents the data name. The generator register goes into the invariant and comes out; nothing is owed; the kernel
    has no semaphore of its own. -/
def reg0 : Pipeline.RDat.RegionSeg (pcfgs (F := F)) adm₀ (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose.toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.RDat.arrays_of_unscopedBufs (p := 0) (pcfgs (F := F)) adm₀ (rdats m) launch0.win launch0.arr_whole c
      ((rdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm₀ (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    -- exact data read relationally: "some contents the array may hold" are the contents the data name
    have harr : ((rdats m 0 c).arraysAt (Pipeline.pin (pcfgs (F := F)) adm₀ 0).N : sProp 𝕄)
        ⊢ (pdats m 0 c).arrays ((pdats m 0 c).arrAt · cfg0.N) := Entails.of_eq ((dat0 (VE0 m) c).toR_arraysAt_eq cfg0.N)
    iintro ⟨Ha, HO, HY, Hrest⟩
    ihave Ha' := harr $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- REGION 1 (the edge kernel) over the thread state: entered from every unscoped buffer at `W5`, left at the
    existential state `TX1`. At entry its eight arrays are split out of the unscoped buffers at their entry contents.
    At exit they come back at SOME contents `A` (of the two result arrays nothing is known; nothing need be: no later
    claim reads them); put back among the unscoped buffers they make the valuation that has the arrays at `A` and every
    other buffer as entered. -/
def reg1 : Pipeline.RDat.RegionSeg (pcfgs (F := F)) adm₀ (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).toRForget
  hwaits := Pipeline.RDat.hwaits_of_owed_zero _ _ _ _ L lv 1 fun _ _ => rfl
  pre c := iprop(StableHlo.held (c : Thread nD τ) (Pipeline.ucRefs τ sig) (W5 m c) ∗ R c)
  post c := TX1 m c
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.RDat.arrays_of_unscopedBufs (p := 1) (pcfgs (F := F)) adm₀ (rdats m) launch1.win launch1.arr_whole c
      ((rdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    -- the arrays at SOME contents they may hold after every write-back, opened: one family of contents for all eight
    have hopen : ((rdats m 1 c).arraysAt cfg1.N : sProp 𝕄) ⊢ iprop(∃ A, (pdats m 1 c).arrays A) := by
      unfold Pipeline.RDat.arraysAt
      iintro Ha
      ihave Ha' := (BI.bigSep_exists_pi Finset.univ (fun w F => iprop(⌜(rdats m 1 c).ArrAt w cfg1.N F⌝
          ∗ (cfg1.win w).arr.view.loc (c : Thread nD τ) ↦[(cfg1.win w).arr.view.set]{(rdats m 1 c).share w} F))) $$ Ha
      icases Ha' with ⟨%A, Ha⟩
      ihave Ha2 := (BI.bigSep_pure_sep Finset.univ (fun w => (rdats m 1 c).ArrAt w cfg1.N (A w))
          (fun w => (cfg1.win w).arr.view.loc (c : Thread nD τ) ↦[(cfg1.win w).arr.view.set]{(rdats m 1 c).share w} A w)) $$ Ha
      icases Ha2 with ⟨-, Ha⟩
      iexists A
      iapply (show (bigSep Finset.univ fun w : Fin cfg1.W => ((cfg1.win w).arr.view.loc (c : Thread nD τ)
          ↦[(cfg1.win w).arr.view.set]{(rdats m 1 c).share w} A w : sProp 𝕄)) ⊢ (pdats m 1 c).arrays A from .rfl)
      iexact Ha
    -- put back among the unscoped buffers at the valuation that has the arrays at `A`
    have hjoin : ∀ A : (w : Fin cfg1.W) → Buf (Elt F) ((cfg1.win w).arr.view.loc (c : Thread nD τ)),
        (iprop((pdats m 1 c).arrays A ∗ Pipeline.unscopedRest (Ix := Unit) (Name := ℕ) (U := UR sig nD τ) (Lvl := ℕ) spec1 c (VE1 m c)) : sProp 𝕄)
          ⊢ StableHlo.held (c : Thread nD τ) (Pipeline.ucRefs τ sig) (WX1 m c A) := fun A => by
      have h := Pipeline.unscopedBufs_of_arrays (p := 1) (pcfgs (F := F)) adm₀ (Ix := Unit) (Name := ℕ) (U := UR sig nD τ) (Lvl := ℕ)
        launch1.win launch1.arr_whole c (pdats m) ((pdats m 1 c).share_full fun _ => rfl)
        (VE1 m c) (fun b => WX1 m c A (Proc.devRef .tc b)) A
        (fun w => (Pipeline.withArrays_arr spec1 launch1.win.arr_inj c _ A w).symm)
        (fun b hb => Pipeline.withArrays_of_ne spec1 c _ A b fun w e => hb (Finset.mem_image.mpr ⟨w, Finset.mem_univ _, e⟩))
      rw [Pipeline.unscopedBufs_held c (WX1 m c A)] at h
      exact h
    iintro ⟨Ha, HO, HY, Hrest⟩
    ihave Ha' := hopen $$ Ha
    icases Ha' with ⟨%A, Ha⟩
    imodintro
    iexists A
    isplitl [Ha Hrest]
    · iapply (hjoin A); isplitl [Ha] <;> iassumption
    isplitl [HY]; · iexact HY
    unfold Pipeline.RDat.owesAt Pipeline.owesWithin
    icases HO with ⟨%W, -, HO⟩; iexists W; iexact HO

/-! ## @main as segments, and the launch -/

/-- @main's seven segments in order: a host segment per stretch from its boundary's contents, a region per
    pallas_call, the last stretch under the existential. -/
abbrev segs : List (Pipeline.RDat.Seg (pcfgs (F := F)) adm₀ (rdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (tailSeg m) ]

/-- @main IS the run of the segments: @main is the chain of its seven items, and so is the segments' run. -/
theorem main_run (c : Dev nD) : main (F := F) c = Pipeline.RDat.Seg.run (segs m) := by
  rw [main_chain c, Pipeline.RDat.Seg.run_eq_chain]
  rfl

/-- The last thread state without the `owes` (the launch's chain ends at it BESIDE the core owing nothing): for some
    contents `A` of region 1's arrays, every unscoped buffer at the last boundary's contents, the generator register at
    some state. -/
abbrev Tₙ (c : Dev nD) : sProp 𝕄 :=
  iprop(∃ A : (w : Fin cfg1.W) → Buf (Elt F) ((cfg1.win w).arr.view.loc (c : Thread nD τ)),
    StableHlo.held (c : Thread nD τ) (Pipeline.ucRefs τ sig) (WEnd m c A) ∗ ∃ r, prngReg c r)
theorem TEnd_split (c : Dev nD) :
    TEnd m c ⊢ iprop(Tₙ m c ∗ ∃ W, owes (c : Thread nD τ) (0 : CellTallies nD τ sig Unit) W) := by
  iintro ⟨%A, Hh, Hp, HO⟩
  isplitr [HO]
  · iexists A; isplitl [Hh] <;> iassumption
  iexact HO

variable (ρ : Dev nD → PrngReg)

set_option backward.isDefEq.respectTransparency.types false in
/-- THE FRAME, at any float family: at the compiled mesh, from any memory with zero counters, every weakly fair
    execution of @main on the TensorCore terminates, nothing faulting, and every final state has the six argument
    arrays as launched. The launch over the seven segments; the last thread state (for SOME contents of region 1's
    arrays) read against the final state; each argument walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.RDat.θ_run_regions_kit (pcfgs (F := F)) adm₀ (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := Tₙ m)
    (hch := ⟨fun _ => .rfl, fun _ => .rfl, fun _ => .rfl, fun _ => .rfl, fun _ => .rfl, fun _ => .rfl, fun _ => .rfl, fun c => TEnd_split m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ A : (w : Fin cfg1.W) → Buf (Elt F) ((cfg1.win w).arr.view.loc (c : Thread nD τ)),
      ∀ b ∈ Pipeline.ucRefs τ sig, s.mem (((c : Thread nD τ)).1, b) = WEnd m c A b)
    (hfin := fun c s' => by
      iintro ⟨⟨%A, Hh, -⟩, HSI⟩
      unfold StableHlo.held
      ihave Hr := (pointsTo_read_all (Pipeline.ucRefs τ sig) (fun b => (((c : Thread nD τ)).1, b)) (WEnd m c A) s') $$ [Hh HSI]
      · isplitl [Hh] <;> iassumption
      icases Hr with ⟨%h, HSI⟩
      imodintro
      isplitr; · ipureintro; exact ⟨A, h⟩
      iexact HSI)
    (hQ := fun s h c => by
      obtain ⟨A, hA⟩ := h c
      exact ⟨(hA _ (mem_uc main_arg0 (by decide))).trans (WEnd_main_arg0 m c A),
        (hA _ (mem_uc main_arg1 (by decide))).trans (WEnd_main_arg1 m c A),
        (hA _ (mem_uc main_arg2 (by decide))).trans (WEnd_main_arg2 m c A),
        (hA _ (mem_uc main_arg3 (by decide))).trans (WEnd_main_arg3 m c A),
        (hA _ (mem_uc main_arg4 (by decide))).trans (WEnd_main_arg4 m c A),
        (hA _ (mem_uc main_arg5 (by decide))).trans (WEnd_main_arg5 m c A)⟩)

end Cert.Kernel.Hand

end
-- ==== Proof.KiRegion0.lean ====
/- REGION 0 of @main (the first pallas_call: a blocked matmul, 10 grid points), stated at a PARAMETER `V`: the
   TensorCore's buffer contents when the region is entered. Per window its block at a point; what the body leaves
   in the result window's staging buffer; the body's triple; the pipeline's proof data; the body obligation.
   Generic in the float family. -/
import proofs.«137016_j9826885173720_1_alg».proof.Proof.Gen.KernelIdeal.Launch
import proofs.«137016_j9826885173720_1_alg».proof.Proof.Gen.KernelIdeal.Skeleton
import proofs.«137016_j9826885173720_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`): rows
    `5000 t .. 5000 t + 4999` of the left operand (window 0) and of the result (window 2), the whole
    128 x 128 right operand (window 1). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The whole 5000 x 128 block: the load of the left operand and the store of the result. -/
abbrev r0_0 : Rect S5000x128 := Rect.unit (s := S5000x128) ![0, 0] S5000x128.size inb_S5000x128_S5000x128_0_0
/-- The whole 128 x 128 right operand. -/
abbrev r0_1 : Rect S128x128 := Rect.unit (s := S128x128) ![0, 0] S128x128.size inb_S128x128_S128x128_0_0

/-! ## What the body leaves in the result window's buffer -/

/-- Window 2's staging buffer after the body, from the two input blocks: its one store, of the product of the
    left block by the right operand accumulated into zero. -/
def out0_2 (x0 : Vec F S5000x128 .bf16) (x1 : Vec F S128x128 .bf16) : Vec F S5000x128 .f32 :=
  View.canon [⟨r0_0, k0_pay1 (View.ld x0 r0_0) (View.ld x1 r0_1)⟩]

/-! ## The pipeline's proof data -/

/-- The proof data of pipeline 0 on core `c`: the arrays as the region finds them; after the body at point `t`
    each input's buffer still at its block and the result's at `out0_2` of the two input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The inputs' staging buffers at a point -/

/-- Input window 0's current staging buffer holds its block at every point, for ANY proof data whose array is
    `V`'s (`hA`) and whose body leaves the block in place (`hafter`): the window is fetched at every point, uncut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right operand, whole) is fetched at point 0 only; at a later point its block index has
    not moved, so the buffer still holds the block fetched at point 0, which is every point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole 5000 x 128 buffer, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the two inputs' at read contents `x0`, `x1` and the result's at
    anything, runs to the continuation holding the inputs' as they were and the result's at `out0_2 x0 x1`: it
    loads both inputs, loads the result buffer without using the value, and stores the product over all of it. -/
theorem sound_kernel0 (c : Dev nD) (E : Set ℕ) (i : grid0.Coords)
    (arg1 : Memref sig .tc .vmem S5000x128 .bf16) (harg1 : arg1.IsWhole)
    (arg2 : Memref sig .tc .vmem S128x128 .bf16) (harg2 : arg2.IsWhole)
    (arg3 : Memref sig .tc .vmem S5000x128 .f32) (harg3 : arg3.IsWhole)
    (x0 : Vec F S5000x128 .bf16) (x1 : Vec F S128x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and the three windows' current
    staging buffers, each at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same, each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' memrefs hold their blocks (`before0_0`, `before0_1`), the result's holds
    something, so the body's triple applies; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KiPay.lean ====
/-
  The three payloads of the idealized kernels, read at one index.

  At the ideal values a float is an extended real and every operation is exact.  The first kernel's payload is a
  matrix product of a [5000, 128] block with a [128, 128] matrix into a zero accumulator: at (p, q) it is the sum
  over k < 128 of the products block(p, k) * matrix(k, q).  The second kernel's first payload is the hyperbolic
  tangent of two such products added, plus a [1, 128] row broadcast along the rows; its second payload is the first
  times a third block, whose widening from 16 to 32 bits is the identity on extended reals.
-/
import proofs.«137016_j9826885173720_1_alg».proof.Proof.Gen.KernelIdeal.Skeleton
import proofs.«137016_j9826885173720_1_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

/-- The first kernel's payload at (p, q): the [5000, 128] block times the [128, 128] matrix into the zero accumulator
    is the sum over k < 128 of block(p, k) * matrix(k, q). The casts to the same shape are the identity. -/
theorem pay0_apply (v0 : Vec Ideal S5000x128 .bf16) (v2 : Vec Ideal S128x128 .bf16) (p : Fin 5000) (q : Fin 128) :
    k0_pay1 (F := Ideal) v0 v2 (ix2 p q) = ∑ k : Fin 128, v0 (ix2 p k) * v2 (ix2 k q) := by
  unfold k0_pay1
  simp only [shapeCast_self]
  refine (Ideal.matmul_constant_zero_apply (φ₁ := .bf16) (φ₂ := .bf16)
    dot_S5000x128_S128x128_S5000x128_1_0_0_1_n_n none v0 v2 (ix2 p q)).trans ?_
  exact PlainDot.sum_eq dot_S5000x128_S128x128_S5000x128_1_0_0_1_n_n rfl rfl rfl rfl rfl rfl v0 v2 p q

/-- A [4096, 128] block times a [128, 128] matrix into the zero accumulator, at (p, q): the sum over k < 128 of
    block(p, k) * matrix(k, q). -/
theorem dot4096_apply (a : Vec Ideal S4096x128 .bf16) (b : Vec Ideal S128x128 .bf16) (p : Fin 4096) (q : Fin 128) :
    matmul (F := Ideal) (φ₁ := .bf16) (φ₂ := .bf16) dot_S4096x128_S128x128_S4096x128_1_0_0_1_n_n none a b (constant S4096x128 .f32 0x00000000#32) (ix2 p q)
      = ∑ k : Fin 128, a (ix2 p k) * b (ix2 k q) := by
  refine (Ideal.matmul_constant_zero_apply (φ₁ := .bf16) (φ₂ := .bf16)
    dot_S4096x128_S128x128_S4096x128_1_0_0_1_n_n none a b (ix2 p q)).trans ?_
  exact PlainDot.sum_eq dot_S4096x128_S128x128_S4096x128_1_0_0_1_n_n rfl rfl rfl rfl rfl rfl a b p q

/-- A [1, 128] row broadcast to [4096, 128] reads, at (p, q), the row's entry q: the row axis of the source has
    extent one and reads coordinate 0, the column axis reads the result's column. -/
theorem row_broadcast_apply (r : Vec Ideal S1x128 .f32) (p : Fin 4096) (q : Fin 128) :
    broadcastTo S4096x128 r broadcasts_S1x128_S4096x128 (ix2 p q) = r (ix2 (0 : Fin 1) q) := by
  refine broadcastTo_apply r broadcasts_S1x128_S4096x128 (ix2 p q) (ix2 (0 : Fin 1) q) ?_
  intro a
  match a with
  | ⟨0, _⟩ => rfl
  | ⟨1, _⟩ => rfl

/-- The second kernel's first payload at (p, q): the hyperbolic tangent of the two matrix products' sums added, plus
    the broadcast row's entry q. The vector sum and tangent act element by element. -/
theorem pay1_apply (v0 v5 : Vec Ideal S4096x128 .bf16) (v2 v7 : Vec Ideal S128x128 .bf16) (v11 : Vec Ideal S1x128 .f32)
    (p : Fin 4096) (q : Fin 128) :
    k1_pay1 (F := Ideal) v0 v2 v5 v7 v11 (ix2 p q)
      = Ideal.tanh (((∑ k : Fin 128, v0 (ix2 p k) * v2 (ix2 k q)) + (∑ k : Fin 128, v5 (ix2 p k) * v7 (ix2 k q)))
          + v11 (ix2 (0 : Fin 1) q)) := by
  unfold k1_pay1
  simp only [shapeCast_self]
  show Ideal.tanh
      ((matmul (F := Ideal) (φ₁ := .bf16) (φ₂ := .bf16) dot_S4096x128_S128x128_S4096x128_1_0_0_1_n_n none v0 v2 (constant S4096x128 .f32 0x00000000#32) (ix2 p q)
        + matmul (F := Ideal) (φ₁ := .bf16) (φ₂ := .bf16) dot_S4096x128_S128x128_S4096x128_1_0_0_1_n_n none v5 v7 (constant S4096x128 .f32 0x00000000#32) (ix2 p q))
        + broadcastTo S4096x128 v11 broadcasts_S1x128_S4096x128 (ix2 p q)) = _
  rw [dot4096_apply v0 v2 p q, dot4096_apply v5 v7 p q, row_broadcast_apply v11 p q]

/-- The reference's hyperbolic tangent is, at the ideal values, the same function of an extended real as the
    kernels' one. -/
theorem tanh_host (S : Shape) (x : FVec Ideal S .f32) (i : S.Idx) : Host.tanh (F := Ideal) x i = Ideal.tanh (x i) :=
  Ideal.hostUnary_tanh_def (x i)

/-- The second kernel's second payload at (p, q): the first payload there times the third block's entry; widening an
    extended real from the 16-bit to the 32-bit format changes nothing, and the product acts element by element. -/
theorem pay2_apply (v0 v5 v17 : Vec Ideal S4096x128 .bf16) (v2 v7 : Vec Ideal S128x128 .bf16) (v11 : Vec Ideal S1x128 .f32)
    (p : Fin 4096) (q : Fin 128) :
    k1_pay2 (F := Ideal) v0 v2 v5 v7 v11 v17 (ix2 p q)
      = k1_pay1 (F := Ideal) v0 v2 v5 v7 v11 (ix2 p q) * v17 (ix2 p q) := by
  unfold k1_pay2
  simp only [shapeCast_self]
  rfl

end Cert.KernelIdeal.Hand

end
-- ==== Proof.KiRegion1.lean ====
/-
  REGION 1 of the idealized program: the second pallas_call (the edge kernel) as a pipeline over eight windows,
  its proof data at the contents the region is entered with, and the kernel body's obligation.

  The grid has 196 points; windows 0, 1, 2 (inputs) and 6, 7 (results) are [800000, 128] arrays in blocks of
  [4096, 128] rows, and 800000 = 195 * 4096 + 1280: the last block overhangs the array by 2816 rows, so its
  transfers move only the 1280 rows inside the array.  Windows 3, 4, 5 are whole small arrays.

  The proof data name, for each window, what its staging buffer holds after the body: for an input its block,
  filled out past the array's end with a default word nothing reads; for result 6 the first payload
  tanh(x0 W3 + x1 W4 + b) of those filled blocks, for result 7 that times the third block.  At the ideal values
  row p of a matrix product depends only on row p of its left operand, and the other operations are pointwise, so
  the rows inside the array of what the body stores do not depend on what fills the rows past the array's end:
  this is all the obligation of a window cut at the array's end asks.
-/
import proofs.«137016_j9826885173720_1_alg».proof.Proof.Gen.KernelIdeal.Launch
import proofs.«137016_j9826885173720_1_alg».proof.Proof.Gen.KernelIdeal.Skeleton
import proofs.«137016_j9826885173720_1_alg».proof.Proof.Gen.KernelIdeal.Points
import proofs.«137016_j9826885173720_1_alg».proof.Proof.KiPay
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

-- the TensorCore's buffer contents when the region is entered
variable (V : (c : Dev nD) → (b : Ref sig .tc) → Buf (Elt Ideal) ((c : Thread nD τ).loc b))

/-! ## The windows' blocks -/

/-- Window `w`'s block at point `t`, read off its array as the region finds it: the part inside the array. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The block filled out to the staging buffer's shape, past the array's end with the default word (for a window
    whose blocks tile its array it is the block). -/
def fblk1 (c : Dev nD) (w : Fin cfg1.W) (t : Fin cfg1.N) : (cfg1.win w).block.Idx → Elt Ideal (cfg1.win w).elt :=
  (cfg1.win w).fill (cfg1.grid.coords t) (fun _ => default) (iblk1 V c w t)

/-! ## The pipeline's proof data -/

/-- The proof data of pipeline 1 on core `c`: the arrays as the region finds them; after the body at point `t`
    each input's buffer at its filled block and the two results' at the payloads of the filled blocks; the
    invariant: the scoped rest and the generator register, untouched; nothing owed; full shares. -/
def dat1 (c : Dev nD) : Dat τ (Elt Ideal) Unit ℕ (UR sig nD τ) ℕ cfg1 c where
  A w := V c (Pipeline.arrRef spec1 w)
  after w t := match w with
    | ⟨0, _⟩ => fblk1 V c 0 t
    | ⟨1, _⟩ => fblk1 V c 1 t
    | ⟨2, _⟩ => fblk1 V c 2 t
    | ⟨3, _⟩ => fblk1 V c 3 t
    | ⟨4, _⟩ => fblk1 V c 4 t
    | ⟨5, _⟩ => fblk1 V c 5 t
    | ⟨6, _⟩ => k1_pay1 (fblk1 V c 0 t) (fblk1 V c 3 t) (fblk1 V c 1 t) (fblk1 V c 4 t) (fblk1 V c 5 t)
    | ⟨7, _⟩ => k1_pay2 (fblk1 V c 0 t) (fblk1 V c 3 t) (fblk1 V c 1 t) (fblk1 V c 4 t) (fblk1 V c 5 t) (fblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = fblk1 V c 0 t := by dsimp only [dat1]
theorem after1_1 (c : Dev nD) (t : Fin cfg1.N) : (dat1 V c).after 1 t = fblk1 V c 1 t := by dsimp only [dat1]
theorem after1_2 (c : Dev nD) (t : Fin cfg1.N) : (dat1 V c).after 2 t = fblk1 V c 2 t := by dsimp only [dat1]
theorem after1_3 (c : Dev nD) (t : Fin cfg1.N) : (dat1 V c).after 3 t = fblk1 V c 3 t := by dsimp only [dat1]
theorem after1_4 (c : Dev nD) (t : Fin cfg1.N) : (dat1 V c).after 4 t = fblk1 V c 4 t := by dsimp only [dat1]
theorem after1_5 (c : Dev nD) (t : Fin cfg1.N) : (dat1 V c).after 5 t = fblk1 V c 5 t := by dsimp only [dat1]
theorem after1_6 (c : Dev nD) (t : Fin cfg1.N) : (dat1 V c).after 6 t
    = k1_pay1 (fblk1 V c 0 t) (fblk1 V c 3 t) (fblk1 V c 1 t) (fblk1 V c 4 t) (fblk1 V c 5 t) := by dsimp only [dat1]
theorem after1_7 (c : Dev nD) (t : Fin cfg1.N) : (dat1 V c).after 7 t
    = k1_pay2 (fblk1 V c 0 t) (fblk1 V c 3 t) (fblk1 V c 1 t) (fblk1 V c 4 t) (fblk1 V c 5 t) (fblk1 V c 2 t) := by dsimp only [dat1]

/-! ## What the body finds in each window's current staging buffer -/

/-- The three large inputs are fetched at every point: the buffer holds the block on the rows inside the array and
    `d`, anything, on the rows past its end. -/
theorem before1_0 (c : Dev nD) (t : Fin cfg1.N) (d) :
    (dat1 V c).before 0 t d = (cfg1.win 0).fill (cfg1.grid.coords t) d (iblk1 V c 0 t) := by
  unfold Dat.before; rw [if_pos (fetch1_0 t)]; unfold Dat.fetched Dat.blockOf iblk1; rw [A_eq1]
theorem before1_1 (c : Dev nD) (t : Fin cfg1.N) (d) :
    (dat1 V c).before 1 t d = (cfg1.win 1).fill (cfg1.grid.coords t) d (iblk1 V c 1 t) := by
  unfold Dat.before; rw [if_pos (fetch1_1 t)]; unfold Dat.fetched Dat.blockOf iblk1; rw [A_eq1]
theorem before1_2 (c : Dev nD) (t : Fin cfg1.N) (d) :
    (dat1 V c).before 2 t d = (cfg1.win 2).fill (cfg1.grid.coords t) d (iblk1 V c 2 t) := by
  unfold Dat.before; rw [if_pos (fetch1_2 t)]; unfold Dat.fetched Dat.blockOf iblk1; rw [A_eq1]

/-- The three small inputs are whole arrays fetched once, at the first point, into their one buffer, which the body
    only reads: at every point it holds the array (no row is past the array's end, so nothing of `d` is left). -/
theorem before1_3 (c : Dev nD) (t : Fin cfg1.N) (d) : (dat1 V c).before 3 t d = fblk1 V c 3 t := by
  rw [(dat1 V c).before_in_eq_fetched 3 rfl (fun _ => rfl) (fun _ _ _ => rfl)
    (fun t => by rw [after1_3]; unfold fblk1; rw [Window.cut_fill]; unfold Dat.blockOf iblk1; rw [A_eq1]) t d,
    (dat1 V c).fetched_of_clip_none 3 t (fun _ => rfl) d (fun _ => default)]
  unfold Dat.fetched Dat.blockOf fblk1 iblk1; rw [A_eq1]
theorem before1_4 (c : Dev nD) (t : Fin cfg1.N) (d) : (dat1 V c).before 4 t d = fblk1 V c 4 t := by
  rw [(dat1 V c).before_in_eq_fetched 4 rfl (fun _ => rfl) (fun _ _ _ => rfl)
    (fun t => by rw [after1_4]; unfold fblk1; rw [Window.cut_fill]; unfold Dat.blockOf iblk1; rw [A_eq1]) t d,
    (dat1 V c).fetched_of_clip_none 4 t (fun _ => rfl) d (fun _ => default)]
  unfold Dat.fetched Dat.blockOf fblk1 iblk1; rw [A_eq1]
theorem before1_5 (c : Dev nD) (t : Fin cfg1.N) (d) : (dat1 V c).before 5 t d = fblk1 V c 5 t := by
  rw [(dat1 V c).before_in_eq_fetched 5 rfl (fun _ => rfl) (fun _ _ _ => rfl)
    (fun t => by rw [after1_5]; unfold fblk1; rw [Window.cut_fill]; unfold Dat.blockOf iblk1; rw [A_eq1]) t d,
    (dat1 V c).fetched_of_clip_none 5 t (fun _ => rfl) d (fun _ => default)]
  unfold Dat.fetched Dat.blockOf fblk1 iblk1; rw [A_eq1]

/-- The two results are written back at every point: at each point their buffer is fresh and holds anything. -/
theorem before1_6 (c : Dev nD) (t : Fin cfg1.N) (d) : (dat1 V c).before 6 t d = d :=
  (dat1 V c).before_out_reset 6 rfl t
    (by by_cases h : t.val = 0
        · exact .inl h
        · exact .inr ⟨h, flush1_6 _⟩) d
theorem before1_7 (c : Dev nD) (t : Fin cfg1.N) (d) : (dat1 V c).before 7 t d = d :=
  (dat1 V c).before_out_reset 7 rfl t
    (by by_cases h : t.val = 0
        · exact .inl h
        · exact .inr ⟨h, flush1_7 _⟩) d

/-- On the rows inside the array a filled block is the block. -/
theorem cut_fblk1 (c : Dev nD) (w : Fin cfg1.W) (t : Fin cfg1.N) :
    (cfg1.win w).cut (cfg1.grid.coords t) (fblk1 V c w t) = iblk1 V c w t := Window.cut_fill _ _ _ _

/-! ## The body's triple -/

/-- The whole [4096, 128] buffer as a rectangle at offsets zero: where the body's two stores go. -/
abbrev rW1 : Rect S4096x128 := Rect.unit (s := S4096x128) ![0, 0] S4096x128.size inb_S4096x128_S4096x128_0_0

/-- The offsets of every access of the body: zero on both axes. -/
theorem zero2 : (![0, 0] : Fin 2 → Nat) = fun _ => 0 := funext fun a => by fin_cases a <;> rfl

/-- One store through it covers the buffer. -/
theorem cover1 (p0 : Vec Ideal S4096x128 .f32) (y : S4096x128.Idx) :
    ∃ pc ∈ ([⟨rW1, p0⟩] : List (View.Piece (Elt Ideal) S4096x128 .f32)), y ∈ pc.1.set :=
  ⟨⟨rW1, p0⟩, List.mem_singleton_self _, View.mem_set_unit_zero (S := S4096x128) zero2 inb_S4096x128_S4096x128_0_0 y⟩

set_option maxHeartbeats 1000000 in
/-- The kernel body on whole staging memrefs, the six inputs' at contents `x0 … x5` and the two results' at anything,
    runs to the continuation holding the inputs' as they were, the first result's at the first payload of the inputs
    and the second result's at the second payload: six whole loads, two dead loads of the results' buffers, and one
    whole store to each result. -/
theorem sound_kernel1 (c : Dev nD) (E : Set ℕ) (i : grid1.Coords)
    (arg1 : Memref sig .tc .vmem S4096x128 .bf16) (harg1 : arg1.IsWhole) (arg2 : Memref sig .tc .vmem S4096x128 .bf16) (harg2 : arg2.IsWhole)
    (arg3 : Memref sig .tc .vmem S4096x128 .bf16) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S1x128 .f32) (harg6 : arg6.IsWhole)
    (arg7 : Memref sig .tc .vmem S4096x128 .f32) (harg7 : arg7.IsWhole) (arg8 : Memref sig .tc .vmem S4096x128 .f32) (harg8 : arg8.IsWhole)
    (x0 x1 x2 : Vec Ideal S4096x128 .bf16) (x3 x4 : Vec Ideal S128x128 .bf16) (x5 : Vec Ideal S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k1_pay1 x0 x3 x1 x4 x5)
            ∗ owns (c : Thread nD τ) arg8 fullShare (k1_pay2 x0 x3 x1 x4 x5 x2)) -∗ K ⟨⟩))
      ⊢ wp frame (wpE (defs₀ (F := Ideal)) Variants.none c none) E
          (cc1__edge_kernel i arg1 harg1 arg2 harg2 arg3 harg3 arg4 harg4 arg5 harg5 arg6 harg6 arg7 harg7 arg8 harg8) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  -- every access is through the whole-shape rectangle at offsets zero: a load reads the contents, and the one store
  -- leaves its payload
  have hz := zero2
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (cover1 _),
      View.canon_unit_zero hz]
    simp only [View.readAt_eq_ld, View.ld_unit_zero (S := S4096x128) hz inb_S4096x128_S4096x128_0_0,
      View.ld_unit_zero (S := S128x128) hz inb_S128x128_S128x128_0_0, View.ld_unit_zero (S := S1x128) hz inb_S1x128_S1x128_0_0]
  · iexists _; isplitr
    swap; · iexact H7
    ipureintro
    rw [View.read_writes_eq_canon _ _ _ (cover1 _),
      View.canon_unit_zero hz]
    simp only [View.readAt_eq_ld, View.ld_unit_zero (S := S4096x128) hz inb_S4096x128_S4096x128_0_0,
      View.ld_unit_zero (S := S128x128) hz inb_S128x128_S128x128_0_0, View.ld_unit_zero (S := S1x128) hz inb_S1x128_S1x128_0_0]

/-! ## Row locality: the rows inside the array do not see what fills the rows past its end -/

/-- The first payload at (p, q) reads its two left operands on row `p` only: operands that agree there give equal
    values (each product's entry is a sum over the row, and the sum, the broadcast row and the hyperbolic tangent
    act entry by entry). -/
theorem pay1_row_congr (v0 v0' v5 v5' : Vec Ideal S4096x128 .bf16) (v2 v7 : Vec Ideal S128x128 .bf16) (v11 : Vec Ideal S1x128 .f32)
    (p : Fin 4096) (q : Fin 128) (h0 : ∀ k : Fin 128, v0 (ix2 p k) = v0' (ix2 p k)) (h5 : ∀ k : Fin 128, v5 (ix2 p k) = v5' (ix2 p k)) :
    k1_pay1 (F := Ideal) v0 v2 v5 v7 v11 (ix2 p q) = k1_pay1 (F := Ideal) v0' v2 v5' v7 v11 (ix2 p q) := by
  rw [pay1_apply, pay1_apply]; simp only [h0, h5]

/-- The second payload at (p, q) is the first there times the third block's entry there. -/
theorem pay2_row_congr (v0 v0' v5 v5' v17 v17' : Vec Ideal S4096x128 .bf16) (v2 v7 : Vec Ideal S128x128 .bf16) (v11 : Vec Ideal S1x128 .f32)
    (p : Fin 4096) (q : Fin 128) (h0 : ∀ k : Fin 128, v0 (ix2 p k) = v0' (ix2 p k)) (h5 : ∀ k : Fin 128, v5 (ix2 p k) = v5' (ix2 p k))
    (h17 : ∀ k : Fin 128, v17 (ix2 p k) = v17' (ix2 p k)) :
    k1_pay2 (F := Ideal) v0 v2 v5 v7 v11 v17 (ix2 p q) = k1_pay2 (F := Ideal) v0' v2 v5' v7 v11 v17' (ix2 p q) := by
  rw [pay2_apply, pay2_apply, pay1_row_congr v0 v0' v5 v5' v2 v7 v11 p q h0 h5, h17]

/-- Two fillings of one block agree at every index the transfer moves. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- The five large windows cut their blocks alike: on the rows only, at the array's 800000 rows; every one of the 128
    columns is moved.  So an index of the [4096, 128] block is moved exactly when its row is among the rows moved. -/
theorem moved1_0 (i : grid1.Coords) (p : Fin 4096) (k : Fin 128) (hp : p.val < (cfg1.win 0).xsize i 0) :
    (cfg1.win 0).moved i (ix2 p k) = true := by
  rw [Window.moved_iff]; intro a
  match a with
  | ⟨0, _⟩ => exact hp
  | ⟨1, _⟩ => exact k.isLt
theorem moved1_1 (i : grid1.Coords) (p : Fin 4096) (k : Fin 128) (hp : p.val < (cfg1.win 1).xsize i 0) :
    (cfg1.win 1).moved i (ix2 p k) = true := by
  rw [Window.moved_iff]; intro a
  match a with
  | ⟨0, _⟩ => exact hp
  | ⟨1, _⟩ => exact k.isLt
theorem moved1_2 (i : grid1.Coords) (p : Fin 4096) (k : Fin 128) (hp : p.val < (cfg1.win 2).xsize i 0) :
    (cfg1.win 2).moved i (ix2 p k) = true := by
  rw [Window.moved_iff]; intro a
  match a with
  | ⟨0, _⟩ => exact hp
  | ⟨1, _⟩ => exact k.isLt

/-- The rows a result window writes back are the rows each input window's fetch filled (one index map, one cut). -/
theorem xsize1_6_0 (i : grid1.Coords) : (cfg1.win 6).xsize i 0 = (cfg1.win 0).xsize i 0 := rfl
theorem xsize1_6_1 (i : grid1.Coords) : (cfg1.win 6).xsize i 0 = (cfg1.win 1).xsize i 0 := rfl
theorem xsize1_7_0 (i : grid1.Coords) : (cfg1.win 7).xsize i 0 = (cfg1.win 0).xsize i 0 := rfl
theorem xsize1_7_1 (i : grid1.Coords) : (cfg1.win 7).xsize i 0 = (cfg1.win 1).xsize i 0 := rfl
theorem xsize1_7_2 (i : grid1.Coords) : (cfg1.win 7).xsize i 0 = (cfg1.win 2).xsize i 0 := rfl

/-- On the rows result 6 writes back, the first payload of the input blocks filled out with ANY words past the
    array's end is the first payload of the blocks filled out with any others. -/
theorem cut_pay1_fill (i : grid1.Coords) (d0 d0' : (cfg1.win 0).block.Idx → Elt Ideal (cfg1.win 0).elt)
    (d1 d1' : (cfg1.win 1).block.Idx → Elt Ideal (cfg1.win 1).elt)
    (g0 : ((cfg1.win 0).xblock i).Idx → Elt Ideal (cfg1.win 0).elt) (g1 : ((cfg1.win 1).xblock i).Idx → Elt Ideal (cfg1.win 1).elt)
    (x3 x4 : Vec Ideal S128x128 .bf16) (x5 : Vec Ideal S1x128 .f32) :
    (cfg1.win 6).cut i (k1_pay1 (F := Ideal) ((cfg1.win 0).fill i d0 g0) x3 ((cfg1.win 1).fill i d1 g1) x4 x5)
      = (cfg1.win 6).cut i (k1_pay1 (F := Ideal) ((cfg1.win 0).fill i d0' g0) x3 ((cfg1.win 1).fill i d1' g1) x4 x5) := by
  funext j
  have hp0 : (j 0).val < (cfg1.win 0).xsize i 0 := xsize1_6_0 i ▸ (j 0).isLt
  have hp1 : (j 0).val < (cfg1.win 1).xsize i 0 := xsize1_6_1 i ▸ (j 0).isLt
  show k1_pay1 (F := Ideal) _ _ _ _ _ ((cfg1.win 6).xinj i j) = k1_pay1 (F := Ideal) _ _ _ _ _ ((cfg1.win 6).xinj i j)
  rw [eq_ix2 ((cfg1.win 6).xinj i j)]
  exact pay1_row_congr _ _ _ _ _ _ _ _ _
    (fun k => fill_eq_of_moved (cfg1.win 0) i d0 d0' g0 (moved1_0 i _ k hp0))
    (fun k => fill_eq_of_moved (cfg1.win 1) i d1 d1' g1 (moved1_1 i _ k hp1))

/-- Likewise the second payload on the rows result 7 writes back. -/
theorem cut_pay2_fill (i : grid1.Coords) (d0 d0' : (cfg1.win 0).block.Idx → Elt Ideal (cfg1.win 0).elt)
    (d1 d1' : (cfg1.win 1).block.Idx → Elt Ideal (cfg1.win 1).elt) (d2 d2' : (cfg1.win 2).block.Idx → Elt Ideal (cfg1.win 2).elt)
    (g0 : ((cfg1.win 0).xblock i).Idx → Elt Ideal (cfg1.win 0).elt) (g1 : ((cfg1.win 1).xblock i).Idx → Elt Ideal (cfg1.win 1).elt)
    (g2 : ((cfg1.win 2).xblock i).Idx → Elt Ideal (cfg1.win 2).elt)
    (x3 x4 : Vec Ideal S128x128 .bf16) (x5 : Vec Ideal S1x128 .f32) :
    (cfg1.win 7).cut i (k1_pay2 (F := Ideal) ((cfg1.win 0).fill i d0 g0) x3 ((cfg1.win 1).fill i d1 g1) x4 x5 ((cfg1.win 2).fill i d2 g2))
      = (cfg1.win 7).cut i (k1_pay2 (F := Ideal) ((cfg1.win 0).fill i d0' g0) x3 ((cfg1.win 1).fill i d1' g1) x4 x5 ((cfg1.win 2).fill i d2' g2)) := by
  funext j
  have hp0 : (j 0).val < (cfg1.win 0).xsize i 0 := xsize1_7_0 i ▸ (j 0).isLt
  have hp1 : (j 0).val < (cfg1.win 1).xsize i 0 := xsize1_7_1 i ▸ (j 0).isLt
  have hp2 : (j 0).val < (cfg1.win 2).xsize i 0 := xsize1_7_2 i ▸ (j 0).isLt
  show k1_pay2 (F := Ideal) _ _ _ _ _ _ ((cfg1.win 7).xinj i j) = k1_pay2 (F := Ideal) _ _ _ _ _ _ ((cfg1.win 7).xinj i j)
  rw [eq_ix2 ((cfg1.win 7).xinj i j)]
  exact pay2_row_congr _ _ _ _ _ _ _ _ _ _ _
    (fun k => fill_eq_of_moved (cfg1.win 0) i d0 d0' g0 (moved1_0 i _ k hp0))
    (fun k => fill_eq_of_moved (cfg1.win 1) i d1 d1' g1 (moved1_1 i _ k hp1))
    (fun k => fill_eq_of_moved (cfg1.win 2) i d2 d2' g2 (moved1_2 i _ k hp2))

/-! ## The body obligation -/

/-- The library's body obligation, at every point.  The three large inputs' buffers arrive holding their blocks filled
    out with anything past the array's end, the small inputs' holding their arrays, the results' holding anything.
    The body leaves the inputs' as they were and the results' at the payloads of what it read.  For an input that is
    the block on the rows inside the array; for a result, on those rows, it is the payload of the blocks filled
    out with the default word, since those rows do not see the filling. -/
theorem body_obligation1 (c : Dev nD) : BodyObligationLoose (dat1 V c) (defs₀ (F := Ideal)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before1_0 V c t d0, before1_1 V c t d1, before1_2 V c t d2, before1_3 V c t d3, before1_4 V c t d4,
    before1_5 V c t d5, before1_6 V c t d6, before1_7 V c t d7]
  rw [after1_0, after1_1, after1_2, after1_3, after1_4, after1_5, after1_6, after1_7]
  iapply (sound_kernel1 c Set.univ (grid1.coords t)
    (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5))
    (st1_6 t) (hstage1_6 ((cfg1.slots t 6).cast nbuf1_6)) (st1_7 t) (hstage1_7 ((cfg1.slots t 7).cast nbuf1_7))
    ((cfg1.win 0).fill (cfg1.grid.coords t) d0 (iblk1 V c 0 t)) ((cfg1.win 1).fill (cfg1.grid.coords t) d1 (iblk1 V c 1 t))
    ((cfg1.win 2).fill (cfg1.grid.coords t) d2 (iblk1 V c 2 t)) (fblk1 V c 3 t) (fblk1 V c 4 t) (fblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  isplitl [H7]; · iexists d7; iexact H7
  iintro ⟨H0, H1, H2, H3, H4, H5, H6, H7⟩
  isplitl [HΦ]; · iexact HΦ
  isplitl [Ho]; · iexact Ho
  -- an input's buffer holds its block filled out with `d`: on the rows inside the array, the block
  have h0 : (win1 0).cut (grid1.coords t) (fblk1 V c 0 t) = iblk1 V c 0 t := Window.cut_fill _ _ _ _
  have h1 : (win1 1).cut (grid1.coords t) (fblk1 V c 1 t) = iblk1 V c 1 t := Window.cut_fill _ _ _ _
  have h2 : (win1 2).cut (grid1.coords t) (fblk1 V c 2 t) = iblk1 V c 2 t := Window.cut_fill _ _ _ _
  -- a result's buffer holds the payload of the blocks filled out with `d0`, `d1`, `d2`: on the rows inside the
  -- array, the payload of the blocks filled out with the default word
  have h6 : (win1 6).cut (grid1.coords t)
        (k1_pay1 (F := Ideal) ((cfg1.win 0).fill (cfg1.grid.coords t) d0 (iblk1 V c 0 t)) (fblk1 V c 3 t)
          ((cfg1.win 1).fill (cfg1.grid.coords t) d1 (iblk1 V c 1 t)) (fblk1 V c 4 t) (fblk1 V c 5 t))
      = (win1 6).cut (grid1.coords t)
        (k1_pay1 (F := Ideal) (fblk1 V c 0 t) (fblk1 V c 3 t) (fblk1 V c 1 t) (fblk1 V c 4 t) (fblk1 V c 5 t)) :=
    cut_pay1_fill (grid1.coords t) d0 (fun _ => default) d1 (fun _ => default) (iblk1 V c 0 t) (iblk1 V c 1 t) _ _ _
  have h7 : (win1 7).cut (grid1.coords t)
        (k1_pay2 (F := Ideal) ((cfg1.win 0).fill (cfg1.grid.coords t) d0 (iblk1 V c 0 t)) (fblk1 V c 3 t)
          ((cfg1.win 1).fill (cfg1.grid.coords t) d1 (iblk1 V c 1 t)) (fblk1 V c 4 t) (fblk1 V c 5 t)
          ((cfg1.win 2).fill (cfg1.grid.coords t) d2 (iblk1 V c 2 t)))
      = (win1 7).cut (grid1.coords t)
        (k1_pay2 (F := Ideal) (fblk1 V c 0 t) (fblk1 V c 3 t) (fblk1 V c 1 t) (fblk1 V c 4 t) (fblk1 V c 5 t) (fblk1 V c 2 t)) :=
    cut_pay2_fill (grid1.coords t) d0 (fun _ => default) d1 (fun _ => default) d2 (fun _ => default)
      (iblk1 V c 0 t) (iblk1 V c 1 t) (iblk1 V c 2 t) _ _ _
  isplitl [H0]
  · iexists d0; rw [h0]; iexact H0
  isplitl [H1]
  · iexists d1; rw [h1]; iexact H1
  isplitl [H2]
  · iexists d2; rw [h2]; iexact H2
  isplitl [H3]; · iexact H3
  isplitl [H4]; · iexact H4
  isplitl [H5]; · iexact H5
  isplitl [H6]
  · iexists (k1_pay1 (F := Ideal) ((cfg1.win 0).fill (cfg1.grid.coords t) d0 (iblk1 V c 0 t)) (fblk1 V c 3 t)
      ((cfg1.win 1).fill (cfg1.grid.coords t) d1 (iblk1 V c 1 t)) (fblk1 V c 4 t) (fblk1 V c 5 t))
    rw [Window.fill_congr_cut (win1 6) (grid1.coords t) h6]; iexact H6
  · iexists (k1_pay2 (F := Ideal) ((cfg1.win 0).fill (cfg1.grid.coords t) d0 (iblk1 V c 0 t)) (fblk1 V c 3 t)
      ((cfg1.win 1).fill (cfg1.grid.coords t) d1 (iblk1 V c 1 t)) (fblk1 V c 4 t) (fblk1 V c 5 t)
      ((cfg1.win 2).fill (cfg1.grid.coords t) d2 (iblk1 V c 2 t)))
    rw [Window.fill_congr_cut (win1 7) (grid1.coords t) h7]; iexact H7

end Cert.KernelIdeal.Hand

end
-- ==== Proof.KiFold.lean ====
/-
  The contents of the TensorCore's unscoped buffers at every boundary of the idealized kernel program's @main, as a
  fold from the launch memory: a host stretch's boundary is the stretch's operations applied to the boundary before it;
  a kernel region's exit holds, in the region's arrays, what its write-backs leave (an input array what it held, a
  result array every flushed block overwritten in point order), and what was there in every other buffer.
-/
import proofs.«137016_j9826885173720_1_alg».proof.Proof.KiRegion0
import proofs.«137016_j9826885173720_1_alg».proof.Proof.KiRegion1
import proofs.«137016_j9826885173720_1_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- Core `c`'s buffers at launch. -/
abbrev W0 : Dev nD → Valuation τ sig (Elt Ideal) := fun c b => m ((c : Dev nD), b)
/-- After the first host stretch (the first region's entry). -/
abbrev W1 : Dev nD → Valuation τ sig (Elt Ideal) := fun c => StableHlo.after hostOps0 (W0 m c)
/-- The same read at the TensorCore's references. -/
abbrev V1 : (c : Dev nD) → (b : Ref sig .tc) → Buf (Elt Ideal) ((c : Thread nD τ).loc b) := fun c b => W1 m c b
/-- At the first region's exit: its arrays at what the pipeline leaves, every other buffer as entered. -/
def W2 (c : Dev nD) : Valuation τ sig (Elt Ideal) :=
  Pipeline.withArrays spec0 c (W1 m c) fun w => (dat0 (F := Ideal) (V1 m) c).arrAt w cfg0.N
theorem W2_arr (c : Dev nD) (w : Fin cfg0.W) :
    W2 m c (Proc.devRef .tc (Pipeline.arrRef spec0 w)) = (dat0 (F := Ideal) (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- After the three host stretches between the regions (the second region's entry). -/
abbrev W3 : Dev nD → Valuation τ sig (Elt Ideal) := fun c => StableHlo.after hostOps1 (W2 m c)
abbrev W4 : Dev nD → Valuation τ sig (Elt Ideal) := fun c => StableHlo.after hostOps1_1 (W3 m c)
abbrev W5 : Dev nD → Valuation τ sig (Elt Ideal) := fun c => StableHlo.after hostOps1_2 (W4 m c)
/-- The same read at the TensorCore's references. -/
abbrev V5 : (c : Dev nD) → (b : Ref sig .tc) → Buf (Elt Ideal) ((c : Thread nD τ).loc b) := fun c b => W5 m c b
/-- At the second region's exit: its arrays at what the pipeline leaves, every other buffer as entered. -/
def W6 (c : Dev nD) : Valuation τ sig (Elt Ideal) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- After the last host stretch: what @main returns with. -/
abbrev W7 : Dev nD → Valuation τ sig (Elt Ideal) := fun c => StableHlo.after hostOps2 (W6 m c)

end Cert.KernelIdeal.Hand

end
-- ==== Proof.KiRun.lean ====
/- THE RUN of the idealized kernel program: @main's seven segments — a stretch of host operations, the blocked
   matmul (region 0), three stretches of host operations, the edge kernel (region 1), a last stretch of host
   operations — from the launch to the return, over the fold of buffer contents at the segment boundaries (a stretch
   maps its boundary's contents through its operations; a region leaves each of its windows' arrays at what its
   write-backs leave and every other buffer as entered). Every pipeline's proof data are taken at its region's entry
   contents. The conclusion: the program terminates, nothing faulting, and every unscoped buffer ends at the last
   boundary's contents. -/
import proofs.«137016_j9826885173720_1_alg».proof.Proof.KiRegion0
import proofs.«137016_j9826885173720_1_alg».proof.Proof.KiRegion1
import proofs.«137016_j9826885173720_1_alg».proof.Proof.KiFold
import proofs.«137016_j9826885173720_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal

-- the windows' arrays have 50000 and 800000 rows: the structural look at a reference into one recurses deeply
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! # The regions' exits, read at the TensorCore's references

The boundary contents `W0 … W7` are the fold through @main: `W1` after the first stretch (the two index rows
sliced off, the left operand and the first weight matrix rounded to bf16) is region 0's entry; `W2` its exit; `W3`
(the node degrees counted by a scatter-add of ones, one added, the positivity test and the reciprocal square root),
`W4` (the called selection: that root where the degree is positive, zero elsewhere) and `W5` (the edge weights, the
three gathered edge operands — the third scaled by the edge weight and rounded to bf16 —, the two halves of the
second weight matrix rounded to bf16, the bias as one row) lead to region 1's entry; `W6` is its exit; `W7` (the
scatter-add of region 1's second result, the self term and the bias added) is what @main returns with. -/

/-- Region 0's exit contents read at the TensorCore's references. -/
abbrev V2 : (c : Dev nD) → (b : Ref sig .tc) → Buf (Elt Ideal) ((c : Thread nD τ).loc b) := fun c b => W2 m c b
/-- At region 0's exit each of its three arrays holds what the pipeline leaves (`hF0`: the two operands as entered,
    the product's write-backs folded over its ten blocks) and every other buffer what it held at entry (`hrest0`). -/
theorem hF0 (c : Dev nD) (w : Fin cfg0.W) : (dat0 (F := Ideal) (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- Region 1's exit contents read at the TensorCore's references. -/
abbrev V6 : (c : Dev nD) → (b : Ref sig .tc) → Buf (Elt Ideal) ((c : Thread nD τ).loc b) := fun c b => W6 m c b
/-- At region 1's exit each of its eight arrays holds what the pipeline leaves (`hF1`: the six operands as entered,
    each of the two results' write-backs folded over its 196 blocks, the last of which is cut at the array's end) and
    every other buffer what it held at entry (`hrest1`). -/
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-! # The proof data family and the thread state -/

/-- The prefetched tables' admissible contents: no pipeline has a table. -/
abbrev adm : (p : Fin 2) → (pcfgs (F := Ideal) p).Adm := fun p => (cfgs p).toPCfg_adm
/-- Every pipeline's proof data, each at its region's entry contents — a literal `match`, so that the pinned
    configuration at a numeral reduces to the printed one. -/
def pdats : (p : Fin 2) → (c : Dev nD) → Dat τ (Elt Ideal) Unit ℕ (UR sig nD τ) ℕ (Pipeline.pin (pcfgs (F := Ideal)) adm p) c
  | ⟨0, _⟩ => fun c => dat0 (F := Ideal) (V1 m) c
  | ⟨1, _⟩ => fun c => dat1 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its debts, at nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding
    along; it leaves those references at the stretch's image of `W c`, the next boundary's contents by name. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts (the chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m c) ∗ ∃ r, prngReg c r)

/-! # The regions as segments -/

-- a library lemma stated over the pinned configuration unifies with the printed one only when unification may unfold
-- plain definitions in a metavariable's type
set_option backward.isDefEq.respectTransparency.types false in
/-- REGION 0 (the blocked matmul) over the thread state: entered from every unscoped buffer at `W1`, left at `W2`
    (what the next stretch is entered from). Its arrays split out of the unscoped buffers and put back at the exit
    contents; the generator register into the invariant and out; nothing owed; no semaphore of the kernel's own. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (F := Ideal) (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- REGION 1 (the edge kernel) over the thread state: entered from every unscoped buffer at `W5`, left at `W6`
    (what the last stretch is entered from). Its body obligation is the one that lets a window's last block be cut
    at the array's end. Its arrays split out of the unscoped buffers and put back at the exit contents; the generator
    register into the invariant and out; nothing owed; no semaphore of the kernel's own. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V5 m) c
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's 7 segments in order: a host segment per stretch from its boundary's contents, a region per kernel call. -/
abbrev segs : List (Pipeline.Seg (pcfgs (F := Ideal)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)) ]
/-- @main IS the run of the segments: it is the chain of its seven items, and the segments' run is the chain of
    their fragments, item by item the same. -/
theorem main_run (c : Dev nD) : main (F := Ideal) c = Pipeline.Seg.run (segs m) := by
  rw [main_chain c, Pipeline.Seg.run_eq_chain]; rfl

/-- The last stretch's exit regrouped: its buffers at `W7` beside `R` are the last thread state beside the core
    owing nothing (`∗` reassociated). -/
theorem last_link (c : Dev nD) :
    (iprop(StableHlo.held (c : Thread nD τ) (Pipeline.ucRefs τ sig) (W7 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each unscoped buffer holds the last
    boundary's contents `W7`: the launch over the seven segments, whose thread states chain by name (the last
    stretch's exit regrouped by `last_link`), the last thread state read against the final state. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Hand

end
-- ==== Proof.KiGlue.lean ====
/-
  What the host stretches of the idealized kernel program's @main write, as pure terms of what they read.

  @main is: a first stretch (two rows sliced off the edge list and flattened, two narrowings to 16 bits); the
  first kernel region; three stretches (the degree normalisation of the graph, the gathers of the node features
  along the edges, the narrowed weight halves and the bias as a row); the second kernel region; a last stretch
  (the scatter-add of the edge messages onto the nodes, plus the self term and the bias).

  Every statement is at an ARBITRARY valuation `W` of the TensorCore's buffers, so that it applies at whichever
  contents the run has reached when the stretch begins.  A stretch's value at a buffer it writes is the composition
  of its operations' functions at the buffers it reads; at a buffer it does not write it is what was there.
  Generic in the float family.
-/
import proofs.«137016_j9826885173720_1_alg».proof.Proof.Gen.KernelIdeal.Regions
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]

/-! ## The terms -/

/-- An index vector with its negative entries wrapped by the extent 50000 (an entry below zero has 50000 added),
    as a column. -/
def nidx (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The degree of every node: ones scatter-added over the source indices (as a column, not wrapped) onto zeros,
    plus one for the self loop. -/
def degOf (v1 : (⟨S800000, .i32⟩ : BufTy).Contents (Elt F)) : (⟨S50000, .f32⟩ : BufTy).Contents (Elt F) :=
  addf
    (Host.scatterAdd scatter_S50000_S800000x1_S800000_n_0_0_1
      (broadcastInDim S50000 ![] bcast_S_S50000 (constant S_ .f32 0x00000000#32))
      (broadcastInDim S800000x1 ![0] bcast_S800000_S800000x1_0 v1)
      (broadcastInDim S800000 ![] bcast_S_S800000 (constant S_ .f32 0x3F800000#32)))
    (broadcastInDim S50000 ![] bcast_S_S50000 (constant S_ .f32 0x3F800000#32))

/-- The normalisation of every node: where its degree is positive the reciprocal square root of the degree, else
    zero (the zero passed through the inlined selection function as it is). -/
def dinvOf (v1 : (⟨S800000, .i32⟩ : BufTy).Contents (Elt F)) : (⟨S50000, .f32⟩ : BufTy).Contents (Elt F) :=
  select (cmpf (F := F) .ogt (degOf v1) (broadcastInDim S50000 ![] bcast_S_S50000 (constant S_ .f32 0x00000000#32)))
    (Host.rsqrt (degOf v1))
    (broadcastInDim S50000 ![] bcast_S_S50000 (id (constant S_ .f32 0x00000000#32)))

/-- The weight of every edge: the product of its two ends' normalisations, each gathered at the wrapped index. -/
def normOf (v1 v3 : (⟨S800000, .i32⟩ : BufTy).Contents (Elt F)) : (⟨S800000, .f32⟩ : BufTy).Contents (Elt F) :=
  mulf (Host.gather gather_S50000_S800000x1_S800000_n_0_n_n_0_1_1 (dinvOf v1) (nidx v1))
    (Host.gather gather_S50000_S800000x1_S800000_n_0_n_n_0_1_1 (dinvOf v1) (nidx v3))

/-- The edge weights spread along the 128 features: a column, then every column. -/
def normB (v1 v3 : (⟨S800000, .i32⟩ : BufTy).Contents (Elt F)) : (⟨S800000x128, .f32⟩ : BufTy).Contents (Elt F) :=
  broadcastInDim S800000x128 ![0, 1] bcast_S800000x1_S800000x128_0_1
    (broadcastInDim S800000x1 ![0] bcast_S800000_S800000x1_0 (normOf v1 v3))

variable (W : Valuation τ sig (Elt F))

/-! ## After the first stretch -/

/-- The first stretch leaves the edges' source indices in `main_v1`: row 0 of the edge list, flattened. -/
theorem first_v1 : StableHlo.after hostOps0 W (Proc.devRef .tc main_v1)
    = shapeCast _ (extractStridedSlice S1x800000 ![0, 0] (W (Proc.devRef .tc main_arg1)) slices_S2x800000_S1x800000_0_0) shapeCasts_S1x800000_S800000 := by
  after_results
  rfl

/-- The first stretch leaves the edges' target indices in `main_v3`: row 1 of the edge list, flattened. -/
theorem first_v3 : StableHlo.after hostOps0 W (Proc.devRef .tc main_v3)
    = shapeCast _ (extractStridedSlice S1x800000 ![1, 0] (W (Proc.devRef .tc main_arg1)) slices_S2x800000_S1x800000_1_0) shapeCasts_S1x800000_S800000 := by
  after_results
  rfl

/-- The first stretch leaves the node features narrowed to 16 bits in `main_v4`. -/
theorem first_v4 : StableHlo.after hostOps0 W (Proc.devRef .tc main_v4) = truncf .bf16 (W (Proc.devRef .tc main_arg0)) bitsLt_bf16_f32 := by
  after_results

/-- The first stretch leaves the node weight narrowed to 16 bits in `main_v5`. -/
theorem first_v5 : StableHlo.after hostOps0 W (Proc.devRef .tc main_v5) = truncf .bf16 (W (Proc.devRef .tc main_arg4)) bitsLt_bf16_f32 := by
  after_results

/-- A buffer the first stretch does not write is what it was. -/
theorem first_of (r : Ref sig .tc) (h : r ∉ hostOps0_W) : StableHlo.after hostOps0 W (Proc.devRef .tc r) = W (Proc.devRef .tc r) :=
  StableHlo.after_of_writes_sub hostOps0 W hostOps0_writes h

/-! ## After the three stretches between the regions -/

/-- The buffers after the three stretches between the two kernel regions, from `W`. -/
abbrev mid (W : Valuation τ sig (Elt F)) : Valuation τ sig (Elt F) :=
  StableHlo.after hostOps1_2 (StableHlo.after hostOps1_1 (StableHlo.after hostOps1 W))

/-- A buffer none of the three stretches writes is what it was. -/
theorem mid_of (r : Ref sig .tc) (h0 : r ∉ hostOps1_W) (h1 : r ∉ hostOps1_1_W) (h2 : r ∉ hostOps1_2_W) :
    mid W (Proc.devRef .tc r) = W (Proc.devRef .tc r) :=
  (StableHlo.after_of_writes_sub hostOps1_2 _ hostOps1_2_writes h2).trans <|
    (StableHlo.after_of_writes_sub hostOps1_1 _ hostOps1_1_writes h1).trans <|
      StableHlo.after_of_writes_sub hostOps1 W hostOps1_writes h0

/-! ### Stretch by stretch

The degree stretch, the inlined selection and the gather stretch each at a valuation of its own; `mid` then chains
them, a buffer a stretch does not write read through it. -/

/-- The degree stretch leaves in `main_v14` the test "degree positive". -/
theorem deg_v14 : StableHlo.after hostOps1 W (Proc.devRef .tc main_v14)
    = cmpf (F := F) .ogt (degOf (W (Proc.devRef .tc main_v1))) (broadcastInDim S50000 ![] bcast_S_S50000 (constant S_ .f32 0x00000000#32)) := by
  after_results_simp
  unfold degOf
  rfl

/-- The degree stretch leaves in `main_v15` the reciprocal square root of the degree. -/
theorem deg_v15 : StableHlo.after hostOps1 W (Proc.devRef .tc main_v15) = Host.rsqrt (degOf (W (Proc.devRef .tc main_v1))) := by
  after_results_simp
  unfold degOf
  rfl

/-- The degree stretch leaves in `main_cst_3` the scalar zero. -/
theorem deg_cst_3 : StableHlo.after hostOps1 W (Proc.devRef .tc main_cst_3) = constant S_ .f32 0x00000000#32 := by
  after_results_simp

/-- The inlined selection: where the test holds the second operand, else the scalar spread over the nodes. -/
theorem where_v16 : StableHlo.after hostOps1_1 W (Proc.devRef .tc main_v16)
    = select (W (Proc.devRef .tc main_v14)) (W (Proc.devRef .tc main_v15))
        (broadcastInDim S50000 ![] bcast_S_S50000 (id (W (Proc.devRef .tc main_cst_3)))) := by
  after_results_simp
  simp only [TRef.ofBuf, TRef.toBuf, cast_eq]

/-- The gather stretch leaves the source ends' features in `main_v38`. -/
theorem gath_v38 : StableHlo.after hostOps1_2 W (Proc.devRef .tc main_v38)
    = Host.gather gather_S50000x128_S800000x1_S800000x128_1_0_n_n_0_1_1128 (W (Proc.devRef .tc main_v4)) (nidx (W (Proc.devRef .tc main_v1))) := by
  after_results_simp
  unfold nidx
  rfl

/-- The gather stretch leaves the target ends' features in `main_v45`. -/
theorem gath_v45 : StableHlo.after hostOps1_2 W (Proc.devRef .tc main_v45)
    = Host.gather gather_S50000x128_S800000x1_S800000x128_1_0_n_n_0_1_1128 (W (Proc.devRef .tc main_v4)) (nidx (W (Proc.devRef .tc main_v3))) := by
  after_results_simp
  unfold nidx
  rfl

/-- The gather stretch leaves in `main_v56` the target ends' transformed features, each edge's row scaled by the
    product of its two ends' normalisations (read off `main_v16`), narrowed to 16 bits. -/
theorem gath_v56 : StableHlo.after hostOps1_2 W (Proc.devRef .tc main_v56)
    = truncf .bf16 (mulf
        (broadcastInDim S800000x128 ![0, 1] bcast_S800000x1_S800000x128_0_1
          (broadcastInDim S800000x1 ![0] bcast_S800000_S800000x1_0
            (mulf (Host.gather gather_S50000_S800000x1_S800000_n_0_n_n_0_1_1 (W (Proc.devRef .tc main_v16)) (nidx (W (Proc.devRef .tc main_v1))))
              (Host.gather gather_S50000_S800000x1_S800000_n_0_n_n_0_1_1 (W (Proc.devRef .tc main_v16)) (nidx (W (Proc.devRef .tc main_v3)))))))
        (Host.gather gather_S50000x128_S800000x1_S800000x128_1_0_n_n_0_1_1128 (W (Proc.devRef .tc main_v6)) (nidx (W (Proc.devRef .tc main_v3)))))
      bitsLt_bf16_f32 := by
  after_results_simp
  unfold nidx
  rfl

/-- The gather stretch leaves the upper half of the stacked weight, narrowed, in `main_v58`. -/
theorem gath_v58 : StableHlo.after hostOps1_2 W (Proc.devRef .tc main_v58)
    = truncf .bf16 (extractStridedSlice S128x128 ![0, 0] (W (Proc.devRef .tc main_arg2)) slices_S256x128_S128x128_0_0) bitsLt_bf16_f32 := by
  after_results_simp

/-- The gather stretch leaves the lower half of the stacked weight, narrowed, in `main_v60`. -/
theorem gath_v60 : StableHlo.after hostOps1_2 W (Proc.devRef .tc main_v60)
    = truncf .bf16 (extractStridedSlice S128x128 ![128, 0] (W (Proc.devRef .tc main_arg2)) slices_S256x128_S128x128_128_0) bitsLt_bf16_f32 := by
  after_results_simp

/-- The gather stretch leaves the bias as one row in `main_v61`. -/
theorem gath_v61 : StableHlo.after hostOps1_2 W (Proc.devRef .tc main_v61) = shapeCast S1x128 (W (Proc.devRef .tc main_arg3)) shapeCasts_S128_S1x128 := by
  after_results_simp
  rfl

/-- A buffer neither the degree stretch nor the inlined selection writes is, after both, what it was. -/
theorem pre_of (r : Ref sig .tc) (h0 : r ∉ hostOps1_W) (h1 : r ∉ hostOps1_1_W) :
    StableHlo.after hostOps1_1 (StableHlo.after hostOps1 W) (Proc.devRef .tc r) = W (Proc.devRef .tc r) :=
  (StableHlo.after_of_writes_sub hostOps1_1 _ hostOps1_1_writes h1).trans <|
    StableHlo.after_of_writes_sub hostOps1 W hostOps1_writes h0

/-- After the degree stretch and the inlined selection `main_v16` holds the nodes' normalisation. -/
theorem pre_v16 : StableHlo.after hostOps1_1 (StableHlo.after hostOps1 W) (Proc.devRef .tc main_v16) = dinvOf (W (Proc.devRef .tc main_v1)) := by
  rw [where_v16, deg_v14, deg_v15, deg_cst_3]
  rfl

/-- Between the regions `main_v16` comes to hold the nodes' normalisation, of the source indices. -/
theorem mid_v16 : mid W (Proc.devRef .tc main_v16) = dinvOf (W (Proc.devRef .tc main_v1)) := by
  refine (StableHlo.after_of_writes_sub hostOps1_2 _ hostOps1_2_writes (by decide)).trans ?_
  exact pre_v16 W

/-- Between the regions `main_v38` comes to hold the narrowed features of every edge's source end. -/
theorem mid_v38 : mid W (Proc.devRef .tc main_v38)
    = Host.gather gather_S50000x128_S800000x1_S800000x128_1_0_n_n_0_1_1128 (W (Proc.devRef .tc main_v4)) (nidx (W (Proc.devRef .tc main_v1))) := by
  refine (gath_v38 _).trans ?_
  rw [pre_of W main_v4 (by decide) (by decide), pre_of W main_v1 (by decide) (by decide)]

/-- Between the regions `main_v45` comes to hold the narrowed features of every edge's target end. -/
theorem mid_v45 : mid W (Proc.devRef .tc main_v45)
    = Host.gather gather_S50000x128_S800000x1_S800000x128_1_0_n_n_0_1_1128 (W (Proc.devRef .tc main_v4)) (nidx (W (Proc.devRef .tc main_v3))) := by
  refine (gath_v45 _).trans ?_
  rw [pre_of W main_v4 (by decide) (by decide), pre_of W main_v3 (by decide) (by decide)]

/-- Between the regions `main_v56` comes to hold, narrowed, every edge's weight times the first region's result at
    the edge's target end. -/
theorem mid_v56 : mid W (Proc.devRef .tc main_v56)
    = truncf .bf16 (mulf (normB (W (Proc.devRef .tc main_v1)) (W (Proc.devRef .tc main_v3)))
        (Host.gather gather_S50000x128_S800000x1_S800000x128_1_0_n_n_0_1_1128 (W (Proc.devRef .tc main_v6)) (nidx (W (Proc.devRef .tc main_v3))))) bitsLt_bf16_f32 := by
  refine (gath_v56 _).trans ?_
  rw [pre_v16, pre_of W main_v1 (by decide) (by decide), pre_of W main_v3 (by decide) (by decide),
    pre_of W main_v6 (by decide) (by decide)]
  rfl

/-- Between the regions `main_v58` comes to hold the upper half of the stacked weight, narrowed. -/
theorem mid_v58 : mid W (Proc.devRef .tc main_v58)
    = truncf .bf16 (extractStridedSlice S128x128 ![0, 0] (W (Proc.devRef .tc main_arg2)) slices_S256x128_S128x128_0_0) bitsLt_bf16_f32 := by
  refine (gath_v58 _).trans ?_
  rw [pre_of W main_arg2 (by decide) (by decide)]

/-- Between the regions `main_v60` comes to hold the lower half of the stacked weight, narrowed. -/
theorem mid_v60 : mid W (Proc.devRef .tc main_v60)
    = truncf .bf16 (extractStridedSlice S128x128 ![128, 0] (W (Proc.devRef .tc main_arg2)) slices_S256x128_S128x128_128_0) bitsLt_bf16_f32 := by
  refine (gath_v60 _).trans ?_
  rw [pre_of W main_arg2 (by decide) (by decide)]

/-- Between the regions `main_v61` comes to hold the edge bias as one row. -/
theorem mid_v61 : mid W (Proc.devRef .tc main_v61) = shapeCast S1x128 (W (Proc.devRef .tc main_arg3)) shapeCasts_S128_S1x128 := by
  refine (gath_v61 _).trans ?_
  rw [pre_of W main_arg3 (by decide) (by decide)]

/-! ## After the last stretch -/

/-- The last stretch leaves in `main_v73` the self term (the squared normalisation times the first region's result),
    plus the second region's messages scatter-added over the source indices onto zeros, plus the bias row spread
    over the nodes. -/
theorem tail_v73 : StableHlo.after hostOps2 W (Proc.devRef .tc main_v73)
    = addf (addf (mulf (broadcastInDim S50000x128 ![0, 1] bcast_S50000x1_S50000x128_0_1 (broadcastInDim S50000x1 ![0] bcast_S50000_S50000x1_0
          (mulf (W (Proc.devRef .tc main_v16)) (W (Proc.devRef .tc main_v16))))) (W (Proc.devRef .tc main_v6)))
        (Host.scatterAdd scatter_S50000x128_S800000x1_S800000x128_1_0_0_1 (broadcastInDim S50000x128 ![] bcast_S_S50000x128 (constant S_ .f32 0x00000000#32))
          (broadcastInDim S800000x1 ![0] bcast_S800000_S800000x1_0 (W (Proc.devRef .tc main_v1))) (W (Proc.devRef .tc main_v62_1))))
      (broadcastInDim S50000x128 ![0, 1] bcast_S1x128_S50000x128_0_1 (shapeCast S1x128 (W (Proc.devRef .tc main_arg5)) shapeCasts_S128_S1x128)) := by
  after_results_simp
  rfl

/-- A buffer the last stretch does not write is what it was. -/
theorem tail_of (r : Ref sig .tc) (h : r ∉ hostOps2_W) : StableHlo.after hostOps2 W (Proc.devRef .tc r) = W (Proc.devRef .tc r) :=
  StableHlo.after_of_writes_sub hostOps2 W hostOps2_writes h

end Cert.KernelIdeal.Hand

end
-- ==== Proof.KiValue0.lean ====
/- REGION 0's result array in closed form: the blocked matmul leaves in the result array the whole product of the
   left operand [50000,128] by the right operand [128,128]. Each of the 10 grid points writes back rows
   5000 t .. 5000 t + 4999 of that product (its block of the left operand times the whole right operand), and the
   10 blocks tile the array. -/
import proofs.«137016_j9826885173720_1_alg».proof.Proof.KiRegion0
import proofs.«137016_j9826885173720_1_alg».proof.Proof.KiPay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Value0
-- the TensorCore's buffer contents when the region is entered
variable (V : (c : Dev nD) → (b : Ref sig .tc) → Buf (Elt Ideal) ((c : Thread nD τ).loc b))

/-! ## The two operands, at their element type as it computes -/

/-- The left operand [50000,128] as the region finds it. -/
abbrev lhs0 (c : Dev nD) : Vec Ideal S50000x128 .bf16 := V c main_v4
/-- The right operand [128,128] as the region finds it. -/
abbrev rhs0 (c : Dev nD) : Vec Ideal S128x128 .bf16 := V c main_v5

/-- The product of the left operand by the right operand, index by index: row `i 0` of the left operand against
    column `i 1` of the right one, summed over the 128 contracted positions. -/
def xlinG (c : Dev nD) : Vec Ideal S50000x128 .f32 := fun i =>
  ∑ k : Fin 128, lhs0 V c (ix2 ⟨(i 0).val, (i 0).isLt⟩ k) * rhs0 V c (ix2 k ⟨(i 1).val, (i 1).isLt⟩)

theorem hz0 : (![0, 0] : Fin 2 → Nat) = fun _ => 0 := funext fun a => by fin_cases a <;> rfl

/-! ## Where each window's block sits -/

/-- The printed index maps, decided over the 10 grid points: the left operand's and the result's block index is the
    point itself on the row axis and 0 on the column axis; the right operand's is 0 on both. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `5000 t .. 5000 t + 4999` of the left operand. -/
theorem lblk_apply (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .bf16) y = lhs0 V c i := by
  obtain ⟨e0, e1, -⟩ := idx_facts0 t
  show V c main_v4 (((cfg0.win 0).blk t).view.emb y) = V c main_v4 i
  refine congrArg (V c main_v4) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The right operand's block at every point is the whole right operand. -/
theorem rblk_apply (c : Dev nD) (t : Fin cfg0.N) (y : S128x128.Idx) :
    (iblk0 V c 1 t : Vec Ideal S128x128 .bf16) y = rhs0 V c y := by
  obtain ⟨-, -, e0, e1, -⟩ := idx_facts0 t
  show V c main_v5 (((cfg0.win 1).blk t).view.emb y) = V c main_v5 y
  refine congrArg (V c main_v5) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-! ## What a point computes -/

/-- The body's payload at any index of the block: the row of the left block against the column of the right
    operand. -/
theorem pay0_at (x0 : Vec Ideal S5000x128 .bf16) (x1 : Vec Ideal S128x128 .bf16) (y : S5000x128.Idx) :
    k0_pay1 (F := Ideal) x0 x1 y = ∑ k : Fin 128, x0 (ix2 (y 0) k) * x1 (ix2 k (y 1)) :=
  (congrArg (k0_pay1 (F := Ideal) x0 x1) (eq_ix2 y)).trans (pay0_apply x0 x1 (y 0) (y 1))

/-- At point `t`, the payload of the two blocks at block index `y` is the whole product at the array index
    `i` that sits `5000 t` rows lower. -/
theorem point_apply (c : Dev nD) (t : Fin cfg0.N) (y : S5000x128.Idx) (i : S50000x128.Idx)
    (h0 : (i 0).val = t.val * 5000 + (y 0).val) (h1 : (i 1).val = (y 1).val) :
    k0_pay1 (F := Ideal) (iblk0 V c 0 t) (iblk0 V c 1 t) y = xlinG V c i := by
  refine (pay0_at _ _ y).trans ?_
  show _ = ∑ k : Fin 128, lhs0 V c (ix2 ⟨(i 0).val, (i 0).isLt⟩ k) * rhs0 V c (ix2 k ⟨(i 1).val, (i 1).isLt⟩)
  refine Finset.sum_congr rfl fun k _ => ?_
  refine congrArg₂ (· * ·) ?_ ?_
  · exact lblk_apply V c t (ix2 (y 0) k) (ix2 ⟨(i 0).val, (i 0).isLt⟩ k) h0 rfl
  · refine (rblk_apply V c t (ix2 k (y 1))).trans ?_
    refine congrArg (rhs0 V c) (funext fun a => Fin.ext ?_)
    match a with
    | ⟨0, _⟩ => rfl
    | ⟨1, _⟩ => exact h1.symm

/-! ## What a point writes back, and the whole array -/

/-- WHAT POINT `t` WRITES BACK is block `t` of the whole product. -/
theorem flushed0_2_eq (c : Dev nD) (t : Fin cfg0.N) :
    (dat0 (F := Ideal) V c).flushed 2 t = ((cfg0.win 2).blk t).view.read (Elt Ideal) (xlinG V c) := by
  show (cfg0.win 2).cut (grid0.coords t) ((dat0 (F := Ideal) V c).after 2 t) = _
  rw [after0_2]
  unfold out0_2
  rw [View.canon_unit_zero hz0]
  simp only [View.ld_unit_zero (S := S5000x128) hz0, View.ld_unit_zero (S := S128x128) hz0]
  obtain ⟨-, -, -, -, e0, e1⟩ := idx_facts0 t
  funext j
  show k0_pay1 (F := Ideal) (iblk0 V c 0 t) (iblk0 V c 1 t) ((cfg0.win 2).xinj (grid0.coords t) j)
    = xlinG V c (((cfg0.win 2).blk t).view.emb j)
  refine point_apply V c t _ _ ?_ ?_
  · show win0_2.index t (0 : Fin 2) * 5000 + 1 * (j 0).val = t.val * 5000 + (j 0).val; rw [e0]; omega
  · show win0_2.index t (1 : Fin 2) * 128 + 1 * (j 1).val = (j 1).val; rw [e1]; omega

/-- An index of the array is in point `t`'s block iff each coordinate is in the block's range on its axis. -/
theorem mem_blk0_2 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v6).slice (win0_2.rect t)).set ↔ _
  rw [View.set_slice_whole, Rect.mem_set_unit]
  exact Iff.rfl

/-- Every row `r < 50000` lies in the block of point `r / 5000`: the 10 blocks tile the array. -/
theorem cover0_2_arr (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, e0, e1⟩ := idx_facts0 t
  have ht : t.val = (i 0).val / 5000 := rfl
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 128 ≤ (i 1).val ∧ (i 1).val < win0_2.index t (1 : Fin 2) * 128 + 128; rw [e1]; omega

/-- So the result array ends holding the whole product. -/
theorem arr0_2_eq (c : Dev nD) : (dat0 (F := Ideal) V c).arrAt 2 cfg0.N = xlinG V c :=
  (dat0 (F := Ideal) V c).arrAt_eq_of_cover 2 (xlinG V c) (fun t _ => flushed0_2_eq V c t) cover0_2_arr

/-- REGION 0's result array after the run, index by index: the product of the two operands as the region finds
    them. -/
theorem xlin_final (c : Dev nD) (p : Fin 50000) (q : Fin 128) :
    (dat0 (F := Ideal) V c).arrAt 2 cfg0.N (ix2 p q) = ∑ k : Fin 128, lhs0 V c (ix2 p k) * rhs0 V c (ix2 k q) :=
  congrFun (arr0_2_eq V c) (ix2 p q)

end Value0

end Cert.KernelIdeal.Hand

end
-- ==== Proof.KiValue1.lean ====
/-
  REGION 1's two result arrays in closed form.

  The edge kernel runs over 196 points. Its row-blocked windows (three inputs, two results) are [800000, 128] arrays
  in blocks of [4096, 128]: point t holds rows t * 4096 ‥ t * 4096 + 4095, and since 800000 = 195 * 4096 + 1280 the
  block of the last point, t = 195, is cut at the array's end to its first 1280 rows. The two [128, 128] matrices and
  the [1, 128] row are whole-array windows, the same at every point.

  What point t writes back to the first result is, on the rows of its block that lie inside the array, the first
  payload of the staged blocks. Row p' of a matrix product depends only on row p' of its left operand, so at staging
  row p' and column q that payload is
      tanh( sum_k x0(t * 4096 + p', k) * W3(k, q) + sum_k x1(t * 4096 + p', k) * W4(k, q) + b(0, q) ),
  which is the value at array index (t * 4096 + p', q) of ONE function of the whole arrays: the rows past the array's
  end, whatever fills them, are never read. The second result is that times x2 at the same index. Every row r of the
  array lies in the block of point r / 4096, so the blocks cover the array and each result array ends holding its
  function everywhere.
-/
import proofs.«137016_j9826885173720_1_alg».proof.Proof.KiRegion1
import proofs.«137016_j9826885173720_1_alg».proof.Proof.KiPay
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

-- the TensorCore's buffer contents when the region is entered
variable (V : (c : Dev nD) → (b : Ref sig .tc) → Buf (Elt Ideal) ((c : Thread nD τ).loc b))

/-! ## Where the blocks sit -/

/-- The grid has 196 points. -/
theorem N1_eq : cfg1.N = 196 := by decide

/-- At point t the row-blocked windows' block index is (t, 0) and the whole-array windows' is (0, 0); the rows a
    row-blocked window moves are all 4096 of its block but at the last point, where they are the 1280 inside the
    array; every window moves all 128 columns. -/
theorem idx_facts1 : ∀ t : Fin cfg1.N,
    (win1_0.index t (0 : Fin 2) = t.val ∧ win1_0.index t (1 : Fin 2) = 0
      ∧ win1_1.index t (0 : Fin 2) = t.val ∧ win1_1.index t (1 : Fin 2) = 0
      ∧ win1_2.index t (0 : Fin 2) = t.val ∧ win1_2.index t (1 : Fin 2) = 0
      ∧ win1_6.index t (0 : Fin 2) = t.val ∧ win1_6.index t (1 : Fin 2) = 0
      ∧ win1_7.index t (0 : Fin 2) = t.val ∧ win1_7.index t (1 : Fin 2) = 0)
    ∧ (win1_3.index t (0 : Fin 2) = 0 ∧ win1_3.index t (1 : Fin 2) = 0
      ∧ win1_4.index t (0 : Fin 2) = 0 ∧ win1_4.index t (1 : Fin 2) = 0
      ∧ win1_5.index t (0 : Fin 2) = 0 ∧ win1_5.index t (1 : Fin 2) = 0)
    ∧ (((t.val < 195 ∧ win1_0.xsize (grid1.coords t) (0 : Fin 2) = 4096) ∨ (t.val = 195 ∧ win1_0.xsize (grid1.coords t) (0 : Fin 2) = 1280))
      ∧ ((t.val < 195 ∧ win1_1.xsize (grid1.coords t) (0 : Fin 2) = 4096) ∨ (t.val = 195 ∧ win1_1.xsize (grid1.coords t) (0 : Fin 2) = 1280))
      ∧ ((t.val < 195 ∧ win1_2.xsize (grid1.coords t) (0 : Fin 2) = 4096) ∨ (t.val = 195 ∧ win1_2.xsize (grid1.coords t) (0 : Fin 2) = 1280))
      ∧ ((t.val < 195 ∧ win1_6.xsize (grid1.coords t) (0 : Fin 2) = 4096) ∨ (t.val = 195 ∧ win1_6.xsize (grid1.coords t) (0 : Fin 2) = 1280))
      ∧ ((t.val < 195 ∧ win1_7.xsize (grid1.coords t) (0 : Fin 2) = 4096) ∨ (t.val = 195 ∧ win1_7.xsize (grid1.coords t) (0 : Fin 2) = 1280)))
    ∧ (win1_0.xsize (grid1.coords t) (1 : Fin 2) = 128 ∧ win1_1.xsize (grid1.coords t) (1 : Fin 2) = 128
      ∧ win1_2.xsize (grid1.coords t) (1 : Fin 2) = 128 ∧ win1_6.xsize (grid1.coords t) (1 : Fin 2) = 128
      ∧ win1_7.xsize (grid1.coords t) (1 : Fin 2) = 128) :=
  (by decide +kernel : ∀ t : Fin grid1.N, _)

/-! ## A filled block at an index the transfer moves -/

/-- Where every coordinate of a block index is among those the transfer moves, the filled block reads the moved part
    there (what fills the rest is not read). -/
theorem Window.fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill
  rw [dif_pos ((w.moved_iff i j).mpr h)]

/-- Row p' of input 0's staged block at point t, where the transfer moves it, is row t * 4096 + p' of the array. -/
theorem row0 (c : Dev nD) (t : Fin cfg1.N) (p' : Fin 4096) (k : Fin 128) (r : Fin 800000)
    (hp : p'.val < win1_0.xsize (grid1.coords t) (0 : Fin 2)) (hr : r.val = t.val * 4096 + p'.val) :
    fblk1 V c 0 t (ix2 p' k) = V c main_v38 (ix2 r k) := by
  obtain ⟨⟨e00, e01, -⟩, -, -, x01, -⟩ := idx_facts1 t
  have hm : ∀ a : Fin 2, ((ix2 p' k : S4096x128.Idx) a).val < win1_0.xsize (grid1.coords t) a := fun a =>
    match a with
    | ⟨0, _⟩ => hp
    | ⟨1, _⟩ => by show k.val < win1_0.xsize (grid1.coords t) (1 : Fin 2); rw [x01]; exact k.isLt
  unfold fblk1
  refine (Window.fill_apply_of_lt win1_0 (grid1.coords t) _ _ (ix2 p' k) hm).trans ?_
  unfold iblk1
  show V c main_v38 ((win1_0.blk t).view.emb _) = V c main_v38 (ix2 r k)
  refine congrArg _ (funext fun a => Fin.ext ?_)
  match a with
  | ⟨0, _⟩ => show win1_0.index t (0 : Fin 2) * 4096 + 1 * p'.val = r.val; omega
  | ⟨1, _⟩ => show win1_0.index t (1 : Fin 2) * 128 + 1 * k.val = k.val; omega

/-- Row p' of input 1's staged block likewise. -/
theorem row1 (c : Dev nD) (t : Fin cfg1.N) (p' : Fin 4096) (k : Fin 128) (r : Fin 800000)
    (hp : p'.val < win1_1.xsize (grid1.coords t) (0 : Fin 2)) (hr : r.val = t.val * 4096 + p'.val) :
    fblk1 V c 1 t (ix2 p' k) = V c main_v45 (ix2 r k) := by
  obtain ⟨⟨-, -, e10, e11, -⟩, -, -, -, x11, -⟩ := idx_facts1 t
  have hm : ∀ a : Fin 2, ((ix2 p' k : S4096x128.Idx) a).val < win1_1.xsize (grid1.coords t) a := fun a =>
    match a with
    | ⟨0, _⟩ => hp
    | ⟨1, _⟩ => by show k.val < win1_1.xsize (grid1.coords t) (1 : Fin 2); rw [x11]; exact k.isLt
  unfold fblk1
  refine (Window.fill_apply_of_lt win1_1 (grid1.coords t) _ _ (ix2 p' k) hm).trans ?_
  unfold iblk1
  show V c main_v45 ((win1_1.blk t).view.emb _) = V c main_v45 (ix2 r k)
  refine congrArg _ (funext fun a => Fin.ext ?_)
  match a with
  | ⟨0, _⟩ => show win1_1.index t (0 : Fin 2) * 4096 + 1 * p'.val = r.val; omega
  | ⟨1, _⟩ => show win1_1.index t (1 : Fin 2) * 128 + 1 * k.val = k.val; omega

/-- Row p' of input 2's staged block likewise. -/
theorem row2 (c : Dev nD) (t : Fin cfg1.N) (p' : Fin 4096) (k : Fin 128) (r : Fin 800000)
    (hp : p'.val < win1_2.xsize (grid1.coords t) (0 : Fin 2)) (hr : r.val = t.val * 4096 + p'.val) :
    fblk1 V c 2 t (ix2 p' k) = V c main_v56 (ix2 r k) := by
  obtain ⟨⟨-, -, -, -, e20, e21, -⟩, -, -, -, -, x21, -⟩ := idx_facts1 t
  have hm : ∀ a : Fin 2, ((ix2 p' k : S4096x128.Idx) a).val < win1_2.xsize (grid1.coords t) a := fun a =>
    match a with
    | ⟨0, _⟩ => hp
    | ⟨1, _⟩ => by show k.val < win1_2.xsize (grid1.coords t) (1 : Fin 2); rw [x21]; exact k.isLt
  unfold fblk1
  refine (Window.fill_apply_of_lt win1_2 (grid1.coords t) _ _ (ix2 p' k) hm).trans ?_
  unfold iblk1
  show V c main_v56 ((win1_2.blk t).view.emb _) = V c main_v56 (ix2 r k)
  refine congrArg _ (funext fun a => Fin.ext ?_)
  match a with
  | ⟨0, _⟩ => show win1_2.index t (0 : Fin 2) * 4096 + 1 * p'.val = r.val; omega
  | ⟨1, _⟩ => show win1_2.index t (1 : Fin 2) * 128 + 1 * k.val = k.val; omega

/-- A whole-array window's staged block is the array: the first [128, 128] matrix, -/
theorem whole3 (c : Dev nD) (t : Fin cfg1.N) (a : Fin 128) (b : Fin 128) :
    fblk1 V c 3 t (ix2 a b) = V c main_v58 (ix2 a b) := by
  obtain ⟨-, ⟨e30, e31, -⟩, -⟩ := idx_facts1 t
  unfold fblk1
  refine (Window.fill_apply_of_lt win1_3 (grid1.coords t) _ _ (ix2 a b) (fun x => ((ix2 a b : S128x128.Idx) x).isLt)).trans ?_
  unfold iblk1
  show V c main_v58 ((win1_3.blk t).view.emb _) = V c main_v58 (ix2 a b)
  refine congrArg _ (funext fun x => Fin.ext ?_)
  match x with
  | ⟨0, _⟩ => show win1_3.index t (0 : Fin 2) * 128 + 1 * a.val = a.val; omega
  | ⟨1, _⟩ => show win1_3.index t (1 : Fin 2) * 128 + 1 * b.val = b.val; omega

/-- the second [128, 128] matrix, -/
theorem whole4 (c : Dev nD) (t : Fin cfg1.N) (a : Fin 128) (b : Fin 128) :
    fblk1 V c 4 t (ix2 a b) = V c main_v60 (ix2 a b) := by
  obtain ⟨-, ⟨-, -, e40, e41, -⟩, -⟩ := idx_facts1 t
  unfold fblk1
  refine (Window.fill_apply_of_lt win1_4 (grid1.coords t) _ _ (ix2 a b) (fun x => ((ix2 a b : S128x128.Idx) x).isLt)).trans ?_
  unfold iblk1
  show V c main_v60 ((win1_4.blk t).view.emb _) = V c main_v60 (ix2 a b)
  refine congrArg _ (funext fun x => Fin.ext ?_)
  match x with
  | ⟨0, _⟩ => show win1_4.index t (0 : Fin 2) * 128 + 1 * a.val = a.val; omega
  | ⟨1, _⟩ => show win1_4.index t (1 : Fin 2) * 128 + 1 * b.val = b.val; omega

/-- and the [1, 128] row. -/
theorem whole5 (c : Dev nD) (t : Fin cfg1.N) (a : Fin 1) (b : Fin 128) :
    fblk1 V c 5 t (ix2 a b) = V c main_v61 (ix2 a b) := by
  obtain ⟨-, ⟨-, -, -, -, e50, e51⟩, -⟩ := idx_facts1 t
  unfold fblk1
  refine (Window.fill_apply_of_lt win1_5 (grid1.coords t) _ _ (ix2 a b) (fun x => ((ix2 a b : S1x128.Idx) x).isLt)).trans ?_
  unfold iblk1
  show V c main_v61 ((win1_5.blk t).view.emb _) = V c main_v61 (ix2 a b)
  refine congrArg _ (funext fun x => Fin.ext ?_)
  match x with
  | ⟨0, _⟩ => show win1_5.index t (0 : Fin 2) * 1 + 1 * a.val = a.val; omega
  | ⟨1, _⟩ => show win1_5.index t (1 : Fin 2) * 128 + 1 * b.val = b.val; omega

/-! ## The two results as functions of the whole arrays -/

/-- tanh( sum_k x0(p, k) * w3(k, q) + sum_k x1(p, k) * w4(k, q) + b(0, q) ), for any arrays of the windows' shapes. -/
def sheafOf (x0 x1 : Vec Idealize.ShloMosaic.Ideal S800000x128 .bf16) (w3 w4 : Vec Idealize.ShloMosaic.Ideal S128x128 .bf16)
    (b : Vec Idealize.ShloMosaic.Ideal S1x128 .f32) (p : Fin 800000) (q : Fin 128) : Elt Idealize.ShloMosaic.Ideal .f32 :=
  Ideal.tanh (((∑ k : Fin 128, x0 (ix2 p k) * w3 (ix2 k q)) + (∑ k : Fin 128, x1 (ix2 p k) * w4 (ix2 k q)))
    + b (ix2 (0 : Fin 1) q))

/-- The first result at row p, column q, of the arrays as the region finds them. -/
def sheafAt (c : Dev nD) (p : Fin 800000) (q : Fin 128) : Elt Idealize.ShloMosaic.Ideal .f32 :=
  sheafOf (V c main_v38) (V c main_v45) (V c main_v58) (V c main_v60) (V c main_v61) p q

/-- a * b for an entry a of a 32-bit array and an entry b of a 16-bit one: both are extended reals. -/
def timesOf (a : Elt Idealize.ShloMosaic.Ideal .f32) (b : Elt Idealize.ShloMosaic.Ideal .bf16) : Elt Idealize.ShloMosaic.Ideal .f32 :=
  @HMul.hMul (Idealize.ShloMosaic.Ideal FTy.f32) (Elt Idealize.ShloMosaic.Ideal EltTy.bf16) (Idealize.ShloMosaic.Ideal FTy.f32) instHMul a b

/-- The first result array. -/
def G6 (c : Dev nD) : S800000x128.Idx → Elt Idealize.ShloMosaic.Ideal .f32 := fun i => sheafAt V c (i 0) (i 1)

/-- The second result array: the first times input 2, entry by entry. -/
def G7 (c : Dev nD) : S800000x128.Idx → Elt Idealize.ShloMosaic.Ideal .f32 := fun i => timesOf (sheafAt V c (i 0) (i 1)) (V c main_v56 i)

/-- The first payload of the staged blocks at staging row p' and column q, where the transfers move row p': the first
    result's entry at array row t * 4096 + p'. Row p' of each product reads only row p' of its left operand. -/
theorem pay1_at (c : Dev nD) (t : Fin cfg1.N) (p' : Fin 4096) (q : Fin 128) (r : Fin 800000)
    (hp0 : p'.val < win1_0.xsize (grid1.coords t) (0 : Fin 2)) (hp1 : p'.val < win1_1.xsize (grid1.coords t) (0 : Fin 2))
    (hr : r.val = t.val * 4096 + p'.val) :
    k1_pay1 (F := Idealize.ShloMosaic.Ideal) (fblk1 V c 0 t) (fblk1 V c 3 t) (fblk1 V c 1 t) (fblk1 V c 4 t) (fblk1 V c 5 t) (ix2 p' q)
      = sheafAt V c r q := by
  refine (pay1_apply _ _ _ _ _ p' q).trans ?_
  unfold sheafAt sheafOf
  simp only [row0 V c t p' _ r hp0 hr, row1 V c t p' _ r hp1 hr, whole3 V c t, whole4 V c t, whole5 V c t]

/-- The second payload there: the first payload times input 2's entry at the same array index. -/
theorem pay2_at (c : Dev nD) (t : Fin cfg1.N) (p' : Fin 4096) (q : Fin 128) (r : Fin 800000)
    (hp0 : p'.val < win1_0.xsize (grid1.coords t) (0 : Fin 2)) (hp1 : p'.val < win1_1.xsize (grid1.coords t) (0 : Fin 2))
    (hp2 : p'.val < win1_2.xsize (grid1.coords t) (0 : Fin 2)) (hr : r.val = t.val * 4096 + p'.val) :
    k1_pay2 (F := Idealize.ShloMosaic.Ideal) (fblk1 V c 0 t) (fblk1 V c 3 t) (fblk1 V c 1 t) (fblk1 V c 4 t) (fblk1 V c 5 t) (fblk1 V c 2 t) (ix2 p' q)
      = timesOf (sheafAt V c r q) (V c main_v56 (ix2 r q)) := by
  refine (pay2_apply _ _ _ _ _ _ p' q).trans ?_
  rw [pay1_at V c t p' q r hp0 hp1 hr, row2 V c t p' q r hp2 hr]
  rfl

/-! ## What a point writes back -/

/-- The rows point t's transfers move are below 4096 and, counted from t * 4096, inside the array. -/
theorem rows_in (t : Fin cfg1.N) (n x : Nat) (hn : n < x)
    (hx : (t.val < 195 ∧ x = 4096) ∨ (t.val = 195 ∧ x = 1280)) : n < 4096 ∧ t.val * 4096 + n < 800000 := by
  omega

/-- What point t writes back to the first result is block t of the first result array. -/
theorem flushed6_eq (c : Dev nD) (t : Fin cfg1.N) :
    (dat1 V c).flushed 6 t = ((cfg1.win 6).blk t).view.read (Elt Idealize.ShloMosaic.Ideal) (G6 V c) := by
  show (cfg1.win 6).cut (grid1.coords t) ((dat1 V c).after 6 t) = _
  rw [after1_6]
  funext j
  obtain ⟨⟨-, -, -, -, -, -, e60, e61, -⟩, -, ⟨x00, x10, -, x60, -⟩, ⟨-, -, -, x61, -⟩⟩ := idx_facts1 t
  have hj0 : (j 0).val < win1_6.xsize (grid1.coords t) (0 : Fin 2) := (j 0).isLt
  have hj1 : (j 1).val < win1_6.xsize (grid1.coords t) (1 : Fin 2) := (j 1).isLt
  obtain ⟨hp, hrow⟩ := rows_in t (j 0).val _ hj0 x60
  have hq : (j 1).val < 128 := by omega
  have hL : (cfg1.win 6).xinj (grid1.coords t) j = ix2 (⟨(j 0).val, hp⟩ : Fin 4096) (⟨(j 1).val, hq⟩ : Fin 128) :=
    funext fun a => match a with | ⟨0, _⟩ => rfl | ⟨1, _⟩ => rfl
  have hR : ((cfg1.win 6).blk t).view.emb j = ix2 (⟨t.val * 4096 + (j 0).val, hrow⟩ : Fin 800000) (⟨(j 1).val, hq⟩ : Fin 128) := by
    funext a; apply Fin.ext
    match a with
    | ⟨0, _⟩ => show win1_6.index t (0 : Fin 2) * 4096 + 1 * (j 0).val = t.val * 4096 + (j 0).val; omega
    | ⟨1, _⟩ => show win1_6.index t (1 : Fin 2) * 128 + 1 * (j 1).val = (j 1).val; omega
  show k1_pay1 (F := Idealize.ShloMosaic.Ideal) (fblk1 V c 0 t) (fblk1 V c 3 t) (fblk1 V c 1 t) (fblk1 V c 4 t) (fblk1 V c 5 t)
      ((cfg1.win 6).xinj (grid1.coords t) j) = G6 V c (((cfg1.win 6).blk t).view.emb j)
  refine (congrArg (k1_pay1 (F := Idealize.ShloMosaic.Ideal) _ _ _ _ _) hL).trans ?_
  refine Eq.trans ?_ (congrArg (G6 V c) hR).symm
  exact pay1_at V c t ⟨(j 0).val, hp⟩ ⟨(j 1).val, hq⟩ ⟨t.val * 4096 + (j 0).val, hrow⟩
    (by show (j 0).val < _; omega) (by show (j 0).val < _; omega) rfl

/-- What point t writes back to the second result is block t of the second result array. -/
theorem flushed7_eq (c : Dev nD) (t : Fin cfg1.N) :
    (dat1 V c).flushed 7 t = ((cfg1.win 7).blk t).view.read (Elt Idealize.ShloMosaic.Ideal) (G7 V c) := by
  show (cfg1.win 7).cut (grid1.coords t) ((dat1 V c).after 7 t) = _
  rw [after1_7]
  funext j
  obtain ⟨⟨-, -, -, -, -, -, -, -, e70, e71⟩, -, ⟨x00, x10, x20, -, x70⟩, ⟨-, -, -, -, x71⟩⟩ := idx_facts1 t
  have hj0 : (j 0).val < win1_7.xsize (grid1.coords t) (0 : Fin 2) := (j 0).isLt
  have hj1 : (j 1).val < win1_7.xsize (grid1.coords t) (1 : Fin 2) := (j 1).isLt
  obtain ⟨hp, hrow⟩ := rows_in t (j 0).val _ hj0 x70
  have hq : (j 1).val < 128 := by omega
  have hL : (cfg1.win 7).xinj (grid1.coords t) j = ix2 (⟨(j 0).val, hp⟩ : Fin 4096) (⟨(j 1).val, hq⟩ : Fin 128) :=
    funext fun a => match a with | ⟨0, _⟩ => rfl | ⟨1, _⟩ => rfl
  have hR : ((cfg1.win 7).blk t).view.emb j = ix2 (⟨t.val * 4096 + (j 0).val, hrow⟩ : Fin 800000) (⟨(j 1).val, hq⟩ : Fin 128) := by
    funext a; apply Fin.ext
    match a with
    | ⟨0, _⟩ => show win1_7.index t (0 : Fin 2) * 4096 + 1 * (j 0).val = t.val * 4096 + (j 0).val; omega
    | ⟨1, _⟩ => show win1_7.index t (1 : Fin 2) * 128 + 1 * (j 1).val = (j 1).val; omega
  show k1_pay2 (F := Idealize.ShloMosaic.Ideal) (fblk1 V c 0 t) (fblk1 V c 3 t) (fblk1 V c 1 t) (fblk1 V c 4 t) (fblk1 V c 5 t) (fblk1 V c 2 t)
      ((cfg1.win 7).xinj (grid1.coords t) j) = G7 V c (((cfg1.win 7).blk t).view.emb j)
  refine (congrArg (k1_pay2 (F := Idealize.ShloMosaic.Ideal) _ _ _ _ _ _) hL).trans ?_
  refine Eq.trans ?_ (congrArg (G7 V c) hR).symm
  exact pay2_at V c t ⟨(j 0).val, hp⟩ ⟨(j 1).val, hq⟩ ⟨t.val * 4096 + (j 0).val, hrow⟩
    (by show (j 0).val < _; omega) (by show (j 0).val < _; omega) (by show (j 0).val < _; omega) rfl

/-! ## The blocks cover the arrays -/

/-- An index of the first result array is in point t's block iff each coordinate is among those the block has inside
    the array on its axis. -/
theorem mem_blk6 (t : Fin cfg1.N) (i : S800000x128.Idx) :
    i ∈ ((cfg1.win 6).blk t).view.set ↔ ∀ a : Fin 2, win1_6.index t a * S4096x128.size a ≤ (i a).val
      ∧ (i a).val < win1_6.index t a * S4096x128.size a + win1_6.xsize (grid1.coords t) a := by
  show i ∈ ((View.whole main_v62_0).slice (win1_6.rect t)).set ↔ _
  rw [View.set_slice_whole, Rect.mem_set_unit]
  exact Iff.rfl

/-- The same of the second result array. -/
theorem mem_blk7 (t : Fin cfg1.N) (i : S800000x128.Idx) :
    i ∈ ((cfg1.win 7).blk t).view.set ↔ ∀ a : Fin 2, win1_7.index t a * S4096x128.size a ≤ (i a).val
      ∧ (i a).val < win1_7.index t a * S4096x128.size a + win1_7.xsize (grid1.coords t) a := by
  show i ∈ ((View.whole main_v62_1).slice (win1_7.rect t)).set ↔ _
  rw [View.set_slice_whole, Rect.mem_set_unit]
  exact Iff.rfl

/-- Row r < 800000 is a row of point r / 4096, which is one of the 196. -/
theorem point_of_row (r : Nat) (hr : r < 800000) : ∃ t : Fin cfg1.N, t.val = r / 4096 :=
  ⟨⟨r / 4096, lt_of_lt_of_eq (by omega) N1_eq.symm⟩, rfl⟩

/-- Every index of the first result array is in the block of the point its row names. -/
theorem cover6 (i : S800000x128.Idx) :
    ∃ t : Fin cfg1.N, (cfg1.win 6).flush t = true ∧ i ∈ ((cfg1.win 6).blk t).view.set := by
  have hi0 : (i 0).val < 800000 := idx2_lt0 i
  have hi1 : (i 1).val < 128 := idx2_lt1 i
  obtain ⟨t, ht⟩ := point_of_row (i 0).val hi0
  obtain ⟨⟨-, -, -, -, -, -, e60, e61, -⟩, -, ⟨-, -, -, x60, -⟩, ⟨-, -, -, x61, -⟩⟩ := idx_facts1 t
  refine ⟨t, flush1_6 t, ?_⟩
  rw [mem_blk6]
  intro a
  match a with
  | ⟨0, _⟩ =>
    show win1_6.index t (0 : Fin 2) * 4096 ≤ (i 0).val ∧ (i 0).val < win1_6.index t (0 : Fin 2) * 4096 + win1_6.xsize (grid1.coords t) (0 : Fin 2)
    omega
  | ⟨1, _⟩ =>
    show win1_6.index t (1 : Fin 2) * 128 ≤ (i 1).val ∧ (i 1).val < win1_6.index t (1 : Fin 2) * 128 + win1_6.xsize (grid1.coords t) (1 : Fin 2)
    omega

/-- Every index of the second result array likewise. -/
theorem cover7 (i : S800000x128.Idx) :
    ∃ t : Fin cfg1.N, (cfg1.win 7).flush t = true ∧ i ∈ ((cfg1.win 7).blk t).view.set := by
  have hi0 : (i 0).val < 800000 := idx2_lt0 i
  have hi1 : (i 1).val < 128 := idx2_lt1 i
  obtain ⟨t, ht⟩ := point_of_row (i 0).val hi0
  obtain ⟨⟨-, -, -, -, -, -, -, -, e70, e71⟩, -, ⟨-, -, -, -, x70⟩, ⟨-, -, -, -, x71⟩⟩ := idx_facts1 t
  refine ⟨t, flush1_7 t, ?_⟩
  rw [mem_blk7]
  intro a
  match a with
  | ⟨0, _⟩ =>
    show win1_7.index t (0 : Fin 2) * 4096 ≤ (i 0).val ∧ (i 0).val < win1_7.index t (0 : Fin 2) * 4096 + win1_7.xsize (grid1.coords t) (0 : Fin 2)
    omega
  | ⟨1, _⟩ =>
    show win1_7.index t (1 : Fin 2) * 128 ≤ (i 1).val ∧ (i 1).val < win1_7.index t (1 : Fin 2) * 128 + win1_7.xsize (grid1.coords t) (1 : Fin 2)
    omega

/-! ## The arrays after the run -/

/-- The first result array ends holding its function of the whole arrays, everywhere. -/
theorem final6 (c : Dev nD) : (dat1 V c).arrAt 6 cfg1.N = G6 V c :=
  (dat1 V c).arrAt_eq_of_cover 6 (G6 V c) (fun t _ => flushed6_eq V c t) cover6

/-- The second result array likewise. -/
theorem final7 (c : Dev nD) : (dat1 V c).arrAt 7 cfg1.N = G7 V c :=
  (dat1 V c).arrAt_eq_of_cover 7 (G7 V c) (fun t _ => flushed7_eq V c t) cover7

/-- The first result at (p, q): tanh( sum_k x0(p, k) * w3(k, q) + sum_k x1(p, k) * w4(k, q) + b(0, q) ), every entry
    an extended real. -/
theorem sheaf_final (c : Dev nD) (p : Fin 800000) (q : Fin 128) :
    (dat1 V c).arrAt 6 cfg1.N (ix2 p q)
      = Ideal.tanh (@HAdd.hAdd (Elt Idealize.ShloMosaic.Ideal EltTy.bf16) (Elt Idealize.ShloMosaic.Ideal EltTy.f32) (Elt Idealize.ShloMosaic.Ideal EltTy.bf16) instHAdd
          ((∑ k : Fin 128, @HMul.hMul (Elt Idealize.ShloMosaic.Ideal EltTy.bf16) (Elt Idealize.ShloMosaic.Ideal EltTy.bf16) (Elt Idealize.ShloMosaic.Ideal EltTy.bf16) instHMul
              (V c main_v38 (ix2 p k)) (V c main_v58 (ix2 k q)))
            + (∑ k : Fin 128, @HMul.hMul (Elt Idealize.ShloMosaic.Ideal EltTy.bf16) (Elt Idealize.ShloMosaic.Ideal EltTy.bf16) (Elt Idealize.ShloMosaic.Ideal EltTy.bf16) instHMul
              (V c main_v45 (ix2 p k)) (V c main_v60 (ix2 k q))))
          (V c main_v61 (ix2 (0 : Fin 1) q))) :=
  congrFun (final6 V c) (ix2 p q)

/-- The second result at (p, q): the first result there times input 2's entry. -/
theorem msgs_final (c : Dev nD) (p : Fin 800000) (q : Fin 128) :
    (dat1 V c).arrAt 7 cfg1.N (ix2 p q)
      = @HMul.hMul (Idealize.ShloMosaic.Ideal FTy.f32) (Elt Idealize.ShloMosaic.Ideal EltTy.bf16) (Idealize.ShloMosaic.Ideal FTy.f32) instHMul
          ((dat1 V c).arrAt 6 cfg1.N (ix2 p q)) (V c main_v56 (ix2 p q)) :=
  (congrFun (final7 V c) (ix2 p q)).trans
    (congrArg (fun x => timesOf x (V c main_v56 (ix2 p q))) (congrFun (final6 V c) (ix2 p q)).symm)

end Cert.KernelIdeal.Hand

end
-- ==== Proof.RefSheaf.lean ====
import proofs.«137016_j9826885173720_1_alg».proof.Proof.RefRead
import Idealize.ShloMosaic.Lib.Pipeline.Value
import Idealize.ShloMosaic.Lib.ValueIdx
import Idealize.ShloMosaic.PureOps.Ideal.Laws
import Mathlib.Algebra.BigOperators.Fin

/-!
  The reference's two matrix products read at one element, over the extended reals.

  `sheaf_w = tanh (concatenate [x[src], x[dst]] (axis 1) · W_edge + b_edge)`: row `p` of the concatenation is row `p`
  of `x[src]` followed by row `p` of `x[dst]`, so the 256-long contraction at `(p, q)` is the sum of two 128-long
  ones, the first against rows 0 … 127 of `W_edge` and the second against rows 128 … 255. Addition of extended
  reals is associative and commutative, so the split needs no finiteness.

  `x_lin = x · W_lin` at `(p, q)` is the 128-long sum of products along row `p` of `x` and column `q` of `W_lin`.
-/

noncomputable section

namespace Cert.RefBridge

open Cert.ReferenceIdeal Cert.ReferenceIdeal.Gen Cert.ReferenceIdeal.Read Idealize.ShloMosaic Idealize.ShloMosaic.ValueIdx

/-- A sum over 256 positions is the sum over positions 0 … 127 plus the sum over positions 128 … 255
    (any commutative additive monoid). -/
theorem sum_fin256_halves {M : Type*} [AddCommMonoid M] (f : Fin 256 → M) :
    ∑ k : Fin 256, f k
      = (∑ k : Fin 128, f (⟨k.val, by omega⟩ : Fin 256)) + ∑ k : Fin 128, f (⟨128 + k.val, by omega⟩ : Fin 256) :=
  Fin.sum_univ_add (a := 128) (b := 128) f

section AnyInstance
variable {F : FTy → Type} [FloatOps F]

/-- Column `k < 128` of row `p` of the concatenation is column `k` of row `p` of the first piece, `x[src]`. -/
theorem concat_src_apply (x0 : (⟨S50000x128, .f32⟩ : BufTy).Contents (Elt F)) (x1 : (⟨S2x800000, .i32⟩ : BufTy).Contents (Elt F))
    (p : Fin 800000) (k : Fin 128) :
    val_main_v18 (F := F) x0 x1 (ix2 p (⟨k.val, by omega⟩ : Fin 256)) = val_main_v10 (F := F) x0 x1 (ix2 p k) := by
  unfold val_main_v18
  exact concatenate_pair_apply_left (t := S800000x256) (s₁ := S800000x128) (s₂ := S800000x128) 1 _ _ _ _ rfl (ix2 p k)
    (fun b => by
      match b with
      | ⟨0, _⟩ => rfl
      | ⟨1, _⟩ => rfl)

/-- Column `128 + k` of row `p` of the concatenation is column `k` of row `p` of the second piece, `x[dst]`:
    the first piece is 128 columns wide. -/
theorem concat_dst_apply (x0 : (⟨S50000x128, .f32⟩ : BufTy).Contents (Elt F)) (x1 : (⟨S2x800000, .i32⟩ : BufTy).Contents (Elt F))
    (p : Fin 800000) (k : Fin 128) :
    val_main_v18 (F := F) x0 x1 (ix2 p (⟨128 + k.val, by omega⟩ : Fin 256)) = val_main_v17 (F := F) x0 x1 (ix2 p k) := by
  unfold val_main_v18
  exact concatenate_pair_apply_right (t := S800000x256) (s₁ := S800000x128) (s₂ := S800000x128) 1 _ _ _ _ rfl rfl (ix2 p k)
    (fun b hb => by
      match b with
      | ⟨0, _⟩ => rfl
      | ⟨1, _⟩ => exact absurd rfl hb)
    (by show k.val + 128 = 128 + k.val; omega)

/-- The bias broadcast `[128] → [1,128] → [800000,128]` at `(p, q)` is `b_edge` at `q`: both broadcasts keep the
    column and the second one replicates the single row. -/
theorem bias_ref_apply (x3 : (⟨S128, .f32⟩ : BufTy).Contents (Elt F)) (p : Fin 800000) (q : Fin 128) :
    val_main_v21 (F := F) x3 (ix2 p q) = x3 (ix1 q) := by
  rw [val_main_v21_apply, val_main_v20_apply]
  exact congrArg x3 (funext fun a => Fin.ext (by match a with | ⟨0, _⟩ => rfl))

end AnyInstance

/-- The 256-long contraction of the concatenated row `p` against column `q` of `W_edge`, split at the seam: the
    products over `x[src]`'s row against `W_edge`'s rows 0 … 127 plus the products over `x[dst]`'s row against its
    rows 128 … 255. -/
theorem edge_dot_ref_apply (x0 : (⟨S50000x128, .f32⟩ : BufTy).Contents (Elt Ideal)) (x1 : (⟨S2x800000, .i32⟩ : BufTy).Contents (Elt Ideal)) (x2 : (⟨S256x128, .f32⟩ : BufTy).Contents (Elt Ideal)) (p : Fin 800000) (q : Fin 128) :
    val_main_v19 (F := Ideal) x0 x1 x2 (ix2 p q)
      = (∑ k : Fin 128, (val_main_v10 (F := Ideal) x0 x1) (ix2 p k) * x2 (ix2 (⟨k.val, by omega⟩ : Fin 256) q))
        + (∑ k : Fin 128, (val_main_v17 (F := Ideal) x0 x1) (ix2 p k) * x2 (ix2 (⟨128 + k.val, by omega⟩ : Fin 256) q)) := by
  -- the contraction's two index maps are the coordinates `(p, k)` of the left operand and `(k, q)` of the right one
  have el : ∀ k : Fin 256, lidx_main_v19 (ix2 p q) k = ix2 p k := fun k =>
    funext fun a => Fin.ext (by match a with | ⟨0, _⟩ => rfl | ⟨1, _⟩ => rfl)
  have er : ∀ k : Fin 256, ridx_main_v19 (ix2 p q) k = ix2 k q := fun k =>
    funext fun a => Fin.ext (by match a with | ⟨0, _⟩ => rfl | ⟨1, _⟩ => rfl)
  rw [val_main_v19_apply, sum_fin256_halves]
  refine congrArg₂ (· + ·) (Finset.sum_congr rfl fun k _ => ?_) (Finset.sum_congr rfl fun k _ => ?_)
  · rw [el, er, concat_src_apply]
  · rw [el, er, concat_dst_apply]

/-- `sheaf_w` at `(p, q)`: `tanh` of the split contraction plus the bias at `q`. -/
theorem sheaf_ref_apply (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (p : Fin 800000) (q : Fin 128) :
    val_main_v23 (F := Ideal) x0 x1 x2 x3 (ix2 p q)
      = Ideal.tanh (((∑ k : Fin 128, (val_main_v10 (F := Ideal) x0 x1) (ix2 p k) * x2 (ix2 (⟨k.val, by omega⟩ : Fin 256) q))
                    + (∑ k : Fin 128, (val_main_v17 (F := Ideal) x0 x1) (ix2 p k) * x2 (ix2 (⟨128 + k.val, by omega⟩ : Fin 256) q)))
                   + x3 (ix1 q)) := by
  rw [val_main_v23_apply, Ideal.hostUnary_tanh_def, val_main_v22_apply, Ideal.addf_def, edge_dot_ref_apply,
    bias_ref_apply]

/-- `x_lin` at `(p, q)`: the sum over `k` of `x[p, k] * W_lin[k, q]`. -/
theorem xlin_ref_apply (x0 : (⟨S50000x128, .f32⟩ : BufTy).Contents (Elt Ideal)) (x4 : (⟨S128x128, .f32⟩ : BufTy).Contents (Elt Ideal)) (p : Fin 50000) (q : Fin 128) :
    val_main_v49 (F := Ideal) x0 x4 (ix2 p q) = ∑ k : Fin 128, x0 (ix2 p k) * x4 (ix2 k q) := by
  rw [val_main_v49_apply]
  refine Finset.sum_congr rfl fun k _ => ?_
  have el : lidx_main_v49 (ix2 p q) k = ix2 p k :=
    funext fun a => Fin.ext (by match a with | ⟨0, _⟩ => rfl | ⟨1, _⟩ => rfl)
  have er : ridx_main_v49 (ix2 p q) k = ix2 k q :=
    funext fun a => Fin.ext (by match a with | ⟨0, _⟩ => rfl | ⟨1, _⟩ => rfl)
  rw [el, er]

end Cert.RefBridge

end
-- ==== Proof.BridgeStruct.lean ====
/-
  The host-side terms of the idealized kernel program and the stages of the reference program are the same
  compositions of the same operations: the source and destination rows of the edge list, an index vector wrapped
  by the number of nodes, the degree normalisation, the edge weights spread along the features, the gathers of
  node rows along the edges.  Each identity below is between two spellings of one term (the two programs name
  their shape facts and dimension records apart), generic in the float family.
-/
import proofs.«137016_j9826885173720_1_alg».proof.Proof.KiGlue
import proofs.«137016_j9826885173720_1_alg».proof.Proof.RefRead

noncomputable section

namespace Cert.Bridge

open Cert.KernelIdeal Cert.KernelIdeal.Gen Cert.KernelIdeal.Hand Idealize.ShloMosaic Idealize.ShloMosaic.TcCoe
open Cert.ReferenceIdeal.Read (val_main_v1 val_main_v3 val_main_v9 val_main_v16 val_main_v10 val_main_v17 val_main_v33
  val_main_v39 val_main_v46 val_main_v51 val_main_v58 val_main_v59 val_main_v61 val_main_v62 val_main_v49 val_main_v64 val_main_v66
  val_main_v23 val_main_v52 val_main_v60 val_main_v63 val_main_v67 val_main_v68 val_main_v69 val_main_v70 val_main_v71)

variable {F : FTy → Type} [FloatOps F]

/-- The source row of the edge list, flattened. -/
def srcOf (x1 : (⟨S2x800000, .i32⟩ : BufTy).Contents (Elt F)) : (⟨S800000, .i32⟩ : BufTy).Contents (Elt F) :=
  shapeCast _ (extractStridedSlice S1x800000 ![0, 0] x1 slices_S2x800000_S1x800000_0_0) shapeCasts_S1x800000_S800000
/-- The destination row of the edge list, flattened. -/
def dstOf (x1 : (⟨S2x800000, .i32⟩ : BufTy).Contents (Elt F)) : (⟨S800000, .i32⟩ : BufTy).Contents (Elt F) :=
  shapeCast _ (extractStridedSlice S1x800000 ![1, 0] x1 slices_S2x800000_S1x800000_1_0) shapeCasts_S1x800000_S800000

variable (x0 : (⟨S50000x128, .f32⟩ : BufTy).Contents (Elt F)) (x1 : (⟨S2x800000, .i32⟩ : BufTy).Contents (Elt F))
  (x4 : (⟨S128x128, .f32⟩ : BufTy).Contents (Elt F))

theorem src_eq : srcOf x1 = val_main_v1 (F := F) x1 := rfl
theorem dst_eq : dstOf x1 = val_main_v3 (F := F) x1 := rfl
theorem nidx_src_9 : nidx (srcOf x1) = val_main_v9 (F := F) x1 := rfl
theorem nidx_src_39 : nidx (srcOf x1) = val_main_v39 (F := F) x1 := rfl
theorem nidx_dst_16 : nidx (dstOf x1) = val_main_v16 (F := F) x1 := rfl
theorem nidx_dst_46 : nidx (dstOf x1) = val_main_v46 (F := F) x1 := rfl
theorem nidx_dst_58 : nidx (dstOf x1) = val_main_v58 (F := F) x1 := rfl
theorem dinv_eq : dinvOf (srcOf x1) = val_main_v33 (F := F) x1 := rfl
theorem normB_eq : normB (srcOf x1) (dstOf x1) = val_main_v51 (F := F) x1 := rfl
theorem gather_src_eq : Host.gather gather_S50000x128_S800000x1_S800000x128_1_0_n_n_0_1_1128 x0 (nidx (srcOf x1)) = val_main_v10 (F := F) x0 x1 := rfl
theorem gather_dst_eq : Host.gather gather_S50000x128_S800000x1_S800000x128_1_0_n_n_0_1_1128 x0 (nidx (dstOf x1)) = val_main_v17 (F := F) x0 x1 := rfl
theorem gather_xlin_eq (y : (⟨S50000x128, .f32⟩ : BufTy).Contents (Elt F)) (hy : y = val_main_v49 (F := F) x0 x4) :
    Host.gather gather_S50000x128_S800000x1_S800000x128_1_0_n_n_0_1_1128 y (nidx (dstOf x1)) = val_main_v59 (F := F) x0 x1 x4 := by
  subst hy; rfl
theorem src_col_eq : broadcastInDim S800000x1 ![0] bcast_S800000_S800000x1_0 (srcOf x1) = val_main_v62 (F := F) x1 := rfl
theorem zeros_eq : broadcastInDim S50000x128 ![] bcast_S_S50000x128 (constant (F := F) S_ .f32 0x00000000#32) = val_main_v61 (F := F) := rfl
theorem dinv_sq_eq : broadcastInDim S50000x128 ![0, 1] bcast_S50000x1_S50000x128_0_1 (broadcastInDim S50000x1 ![0] bcast_S50000_S50000x1_0
    (mulf (dinvOf (srcOf x1)) (dinvOf (srcOf x1)))) = val_main_v66 (F := F) x1 := rfl

/-- The final formula of the two programs over one set of pieces: the self term, the aggregated messages and
    the bias row, where the node projection, the messages and the bias row are given as arrays. -/
theorem out_eq (x2 : (⟨S256x128, .f32⟩ : BufTy).Contents (Elt F)) (x3 x5 : (⟨S128, .f32⟩ : BufTy).Contents (Elt F))
    (xl : (⟨S50000x128, .f32⟩ : BufTy).Contents (Elt F)) (hxl : xl = val_main_v49 (F := F) x0 x4)
    (ms : (⟨S800000x128, .f32⟩ : BufTy).Contents (Elt F)) (hms : ms = val_main_v60 (F := F) x0 x1 x2 x3 x4)
    (br : (⟨S50000x128, .f32⟩ : BufTy).Contents (Elt F)) (hbr : br = val_main_v70 (F := F) x5) :
    addf (addf (mulf (broadcastInDim S50000x128 ![0, 1] bcast_S50000x1_S50000x128_0_1 (broadcastInDim S50000x1 ![0] bcast_S50000_S50000x1_0
          (mulf (dinvOf (srcOf x1)) (dinvOf (srcOf x1))))) xl)
        (Host.scatterAdd scatter_S50000x128_S800000x1_S800000x128_1_0_0_1 (broadcastInDim S50000x128 ![] bcast_S_S50000x128 (constant (F := F) S_ .f32 0x00000000#32))
          (broadcastInDim S800000x1 ![0] bcast_S800000_S800000x1_0 (srcOf x1)) ms)) br
      = val_main_v71 (F := F) x0 x1 x2 x3 x4 x5 := by
  subst hxl; subst hms; subst hbr; rfl

end Cert.Bridge

end
-- ==== Proof.Bridge.lean ====
/-
  The idealized kernel program's two results are the reference's, as extended reals.

  The node projection: the blocked product of the first kernel region is the whole product x · W_lin (both are, at
  every entry, the sum over the 128 features).  The edge gates: the second region's tanh of the two 128-wide
  products over the gathered source and destination rows, with the top and the bottom half of W_edge, plus the
  bias, is the reference's tanh of ONE 256-wide product over the concatenated row — a finite sum split in two, and
  addition of extended reals is associative and commutative.  The messages: gate · (weight · projection) against
  (weight · gate) · projection, by commutativity and associativity of the product.  The rest of both programs — the
  degree normalisation, the gathers, the aggregation of the messages onto the nodes, the self term and the bias row
  — is the same operations applied to these pieces, so the final arrays agree.  No finiteness of the inputs is used.
-/
import proofs.«137016_j9826885173720_1_alg».proof.Proof.KiFold
import proofs.«137016_j9826885173720_1_alg».proof.Proof.KiGlue
import proofs.«137016_j9826885173720_1_alg».proof.Proof.KiValue0
import proofs.«137016_j9826885173720_1_alg».proof.Proof.KiValue1
import proofs.«137016_j9826885173720_1_alg».proof.Proof.RefSheaf
import proofs.«137016_j9826885173720_1_alg».proof.Proof.BridgeStruct
import Idealize.ShloMosaic.Lib.Pipeline.Value
import Idealize.ShloMosaic.Lib.ValueIdx
import Idealize.ShloMosaic.PureOps.Ideal.Laws

set_option maxRecDepth 16384

noncomputable section

namespace Cert.Bridge

open Cert.KernelIdeal Cert.KernelIdeal.Gen Cert.KernelIdeal.Hand Idealize.ShloMosaic Idealize.ShloMosaic.TcCoe
open Idealize.ShloMosaic.ValueIdx Idealize.SL.Sem
open Cert.ReferenceIdeal.Read (val_main_v10 val_main_v17 val_main_v23 val_main_v49 val_main_v51 val_main_v52 val_main_v59 val_main_v60
  val_main_v69 val_main_v70 val_main_v71)

variable (m : (ℓ : Loc nD τ sig) → Buf (Elt Ideal) ℓ) (c : Dev nD)

/-- The six arguments as the launch memory holds them on core `c`. -/
abbrev a0 : (⟨S50000x128, .f32⟩ : BufTy).Contents (Elt Ideal) := m ((c.tc : Thread nD τ).loc main_arg0)
abbrev a1 : (⟨S2x800000, .i32⟩ : BufTy).Contents (Elt Ideal) := m ((c.tc : Thread nD τ).loc main_arg1)
abbrev a2 : (⟨S256x128, .f32⟩ : BufTy).Contents (Elt Ideal) := m ((c.tc : Thread nD τ).loc main_arg2)
abbrev a3 : (⟨S128, .f32⟩ : BufTy).Contents (Elt Ideal) := m ((c.tc : Thread nD τ).loc main_arg3)
abbrev a4 : (⟨S128x128, .f32⟩ : BufTy).Contents (Elt Ideal) := m ((c.tc : Thread nD τ).loc main_arg4)
abbrev a5 : (⟨S128, .f32⟩ : BufTy).Contents (Elt Ideal) := m ((c.tc : Thread nD τ).loc main_arg5)

/-! ## No segment writes an argument -/

theorem w7_arg (r : Ref sig .tc) (h0 : r ∉ hostOps0_W) (hr0 : ∀ w, Pipeline.arrRef spec0 w ≠ r) (h1 : r ∉ hostOps1_W)
    (h11 : r ∉ hostOps1_1_W) (h12 : r ∉ hostOps1_2_W) (hr1 : ∀ w, Pipeline.arrRef spec1 w ≠ r) (h2 : r ∉ hostOps2_W) :
    W7 m c (Proc.devRef .tc r) = m ((c.tc : Thread nD τ).loc r) :=
  (tail_of (W6 m c) r h2).trans <| (W6_of_ne m c r hr1).trans <| (mid_of (W2 m c) r h1 h11 h12).trans <|
    (W2_of_ne m c r hr0).trans <| (first_of (W0 m c) r h0).trans rfl

/-! ## What the second region is entered with, down to the arguments -/

theorem w1_v1 : W1 m c (Proc.devRef .tc main_v1) = srcOf (a1 m c) := first_v1 (W0 m c)
theorem w1_v3 : W1 m c (Proc.devRef .tc main_v3) = dstOf (a1 m c) := first_v3 (W0 m c)
theorem w1_v4 : W1 m c (Proc.devRef .tc main_v4) = a0 m c := first_v4 (W0 m c)
theorem w1_v5 : W1 m c (Proc.devRef .tc main_v5) = a4 m c := first_v5 (W0 m c)
theorem w2_v1 : W2 m c (Proc.devRef .tc main_v1) = srcOf (a1 m c) := (W2_of_ne m c main_v1 (by decide)).trans (w1_v1 m c)
theorem w2_v3 : W2 m c (Proc.devRef .tc main_v3) = dstOf (a1 m c) := (W2_of_ne m c main_v3 (by decide)).trans (w1_v3 m c)
theorem w2_v4 : W2 m c (Proc.devRef .tc main_v4) = a0 m c := (W2_arr m c 0).trans <| ((dat0 (F := Ideal) (V1 m) c).arrAt_in 0 rfl _).trans <| (A_eq0 (V1 m) c 0).trans (w1_v4 m c)
theorem w2_arg2 : W2 m c (Proc.devRef .tc main_arg2) = a2 m c := (W2_of_ne m c main_arg2 (by decide)).trans <| (first_of (W0 m c) main_arg2 (by decide)).trans rfl
theorem w2_arg3 : W2 m c (Proc.devRef .tc main_arg3) = a3 m c := (W2_of_ne m c main_arg3 (by decide)).trans <| (first_of (W0 m c) main_arg3 (by decide)).trans rfl

/-- The first region's result array is the whole product x · W_lin, the reference's stage. -/
theorem xlin_eq : W2 m c (Proc.devRef .tc main_v6) = val_main_v49 (F := Ideal) (a0 m c) (a4 m c) := by
  refine (W2_arr m c 2).trans ?_
  funext i
  obtain ⟨p, q, rfl⟩ : ∃ (p : Fin 50000) (q : Fin 128), i = ix2 p q := ⟨i 0, i 1, eq_ix2 i⟩
  refine (xlin_final (V1 m) c p q).trans ?_
  rw [Cert.RefBridge.xlin_ref_apply]
  rw [show lhs0 (V1 m) c = a0 m c from w1_v4 m c, show rhs0 (V1 m) c = a4 m c from w1_v5 m c]

theorem v5_v38 : V5 m c main_v38 = val_main_v10 (F := Ideal) (a0 m c) (a1 m c) := by
  refine (mid_v38 (W2 m c)).trans ?_
  rw [w2_v4, w2_v1]
  exact gather_src_eq (F := Ideal) (a0 m c) (a1 m c)
theorem v5_v45 : V5 m c main_v45 = val_main_v17 (F := Ideal) (a0 m c) (a1 m c) := by
  refine (mid_v45 (W2 m c)).trans ?_
  rw [w2_v4, w2_v3]
  exact gather_dst_eq (F := Ideal) (a0 m c) (a1 m c)
/-- The scaled projection rows along the edges, as an array: weight · projection at the destination. -/
theorem v5_v56_arr : (V5 m c main_v56 : FVec Ideal S800000x128 .bf16)
    = truncf (F := Ideal) .bf16 (mulf (F := Ideal) (val_main_v51 (F := Ideal) (a1 m c) : FVec Ideal S800000x128 .f32)
        (val_main_v59 (F := Ideal) (a0 m c) (a1 m c) (a4 m c))) bitsLt_bf16_f32 := by
  refine (mid_v56 (W2 m c)).trans ?_
  rw [w2_v1, w2_v3, normB_eq, gather_xlin_eq (F := Ideal) (a0 m c) (a1 m c) (a4 m c) _ (xlin_eq m c)]
/-- A narrowed product of two arrays, entry by entry, at the ideal instance: the product of the entries. -/
theorem truncf_mulf_apply (A B : FVec Ideal S800000x128 .f32) (i : S800000x128.Idx) :
    (truncf .bf16 (mulf A B) bitsLt_bf16_f32 : S800000x128.Idx → EReal) i = (A i : EReal) * (B i : EReal) := rfl
/-- The same entry by entry. -/
theorem v5_v56 (i : S800000x128.Idx) : (V5 m c main_v56 : S800000x128.Idx → EReal) i
    = (val_main_v51 (F := Ideal) (a1 m c) i : EReal) * (val_main_v59 (F := Ideal) (a0 m c) (a1 m c) (a4 m c) i : EReal) :=
  (congrFun (v5_v56_arr m c) i).trans (truncf_mulf_apply _ _ i)
/-- The top half of W_edge: rows 0‥127. -/
theorem v5_v58 (k q : Fin 128) : V5 m c main_v58 (ix2 k q) = a2 m c (ix2 (⟨k.val, by omega⟩ : Fin 256) q) := by
  rw [show V5 m c main_v58 = _ from mid_v58 (W2 m c), w2_arg2]
  show extractStridedSlice S128x128 ![0, 0] (a2 m c) slices_S256x128_S128x128_0_0 (ix2 k q) = _
  exact extractStridedSlice_apply _ _ _ _ _ fun a => by
    match a with
    | ⟨0, _⟩ => show k.val = 0 + k.val; omega
    | ⟨1, _⟩ => show q.val = 0 + q.val; omega
/-- The bottom half of W_edge: rows 128‥255. -/
theorem v5_v60 (k q : Fin 128) : V5 m c main_v60 (ix2 k q) = a2 m c (ix2 (⟨128 + k.val, by omega⟩ : Fin 256) q) := by
  rw [show V5 m c main_v60 = _ from mid_v60 (W2 m c), w2_arg2]
  show extractStridedSlice S128x128 ![128, 0] (a2 m c) slices_S256x128_S128x128_128_0 (ix2 k q) = _
  exact extractStridedSlice_apply _ _ _ _ _ fun a => by
    match a with
    | ⟨0, _⟩ => show 128 + k.val = 128 + k.val; rfl
    | ⟨1, _⟩ => show q.val = 0 + q.val; omega
/-- The edge bias as a row. -/
theorem v5_v61 (q : Fin 128) : V5 m c main_v61 (ix2 (0 : Fin 1) q) = a3 m c (ix1 q) := by
  rw [show V5 m c main_v61 = _ from mid_v61 (W2 m c), w2_arg3]
  refine (shapeCast_addUnit_apply ![128] (a3 m c) shapeCasts_S128_S1x128 (ix2 (0 : Fin 1) q)).trans ?_
  exact congrArg (a3 m c) (funext fun a => by
    match a with
    | ⟨0, _⟩ => rfl)

/-! ## The second region's result arrays -/

/-- The gates: the reference's tanh stage. -/
theorem sheaf_eq : W6 m c (Proc.devRef .tc main_v62_0) = val_main_v23 (F := Ideal) (a0 m c) (a1 m c) (a2 m c) (a3 m c) := by
  refine (W6_arr m c 6).trans ?_
  funext i
  obtain ⟨p, q, rfl⟩ : ∃ (p : Fin 800000) (q : Fin 128), i = ix2 p q := ⟨i 0, i 1, eq_ix2 i⟩
  refine (sheaf_final (V5 m) c p q).trans ?_
  rw [Cert.RefBridge.sheaf_ref_apply, v5_v38, v5_v45, v5_v61]
  refine congrArg Ideal.tanh ?_
  refine congrArg₂ (fun (x y : EReal) => x + y) (congrArg₂ (fun (x y : EReal) => x + y) ?_ ?_) rfl
  · exact Finset.sum_congr rfl fun k _ =>
      congrArg (fun y : EReal => (val_main_v10 (F := Ideal) (a0 m c) (a1 m c) (ix2 p k) : EReal) * y) (v5_v58 m c k q)
  · exact Finset.sum_congr rfl fun k _ =>
      congrArg (fun y : EReal => (val_main_v17 (F := Ideal) (a0 m c) (a1 m c) (ix2 p k) : EReal) * y) (v5_v60 m c k q)

/-- The gates' array, as the pipeline's proof data name it. -/
theorem arr6_eq : (dat1 (V5 m) c).arrAt 6 cfg1.N = val_main_v23 (F := Ideal) (a0 m c) (a1 m c) (a2 m c) (a3 m c) :=
  (W6_arr m c 6).symm.trans (sheaf_eq m c)

/-- Three extended reals: g · (w · x) = (w · g) · x. -/
theorem mul_rearrange (g w x : EReal) : g * (w * x) = (w * g) * x := by
  rw [← mul_assoc, mul_comm g w]

/-- The messages: gate · (weight · projection) is the reference's (weight · gate) · projection. -/
theorem msgs_eq : W6 m c (Proc.devRef .tc main_v62_1) = val_main_v60 (F := Ideal) (a0 m c) (a1 m c) (a2 m c) (a3 m c) (a4 m c) := by
  refine (W6_arr m c 7).trans ?_
  funext i
  obtain ⟨p, q, rfl⟩ : ∃ (p : Fin 800000) (q : Fin 128), i = ix2 p q := ⟨i 0, i 1, eq_ix2 i⟩
  refine (msgs_final (V5 m) c p q).trans ?_
  rw [Cert.ReferenceIdeal.Read.val_main_v60_apply, Cert.ReferenceIdeal.Read.val_main_v52_apply,
    congrFun (arr6_eq m c) (ix2 p q), v5_v56 m c (ix2 p q)]
  generalize val_main_v23 (F := Ideal) (a0 m c) (a1 m c) (a2 m c) (a3 m c) (ix2 p q) = g
  generalize val_main_v51 (F := Ideal) (a1 m c) (ix2 p q) = w
  generalize val_main_v59 (F := Ideal) (a0 m c) (a1 m c) (a4 m c) (ix2 p q) = x
  exact mul_rearrange g w x

/-! ## The two results -/

/-- The bias as a row, spread over the nodes: the kernel program reshapes [128] to [1,128], the reference broadcasts it. -/
theorem bias_row_eq : broadcastInDim S50000x128 ![0, 1] bcast_S1x128_S50000x128_0_1 (shapeCast S1x128 (a5 m c) shapeCasts_S128_S1x128)
    = val_main_v70 (F := Ideal) (a5 m c) := by
  show _ = broadcastInDim S50000x128 ![0, 1] _ (val_main_v69 (F := Ideal) (a5 m c))
  congr 1
  funext j
  obtain ⟨z, q, rfl⟩ : ∃ (z : Fin 1) (q : Fin 128), j = ix2 z q := ⟨j 0, j 1, eq_ix2 j⟩
  have hz : z = 0 := Subsingleton.elim _ _
  subst hz
  refine (shapeCast_addUnit_apply ![128] (a5 m c) shapeCasts_S128_S1x128 (ix2 (0 : Fin 1) q)).trans ?_
  have e : (fun a : Fin 1 => (ix2 (0 : Fin 1) q) a.succ) = ix1 q := funext fun a => by
    match a with
    | ⟨0, _⟩ => rfl
  rw [e]
  exact (broadcastInDim_apply _ _ (a5 m c) (ix2 0 q) (ix1 q) (fun a => by
    match a with
    | ⟨0, _⟩ => show q.val = if (128 : Nat) = 1 then 0 else q.val; rw [if_neg (by decide)])).symm

/-- The second result of @main: the gates. -/
theorem result_sheaf : W7 m c (Proc.devRef .tc main_v62_0) = val_main_v23 (F := Ideal) (a0 m c) (a1 m c) (a2 m c) (a3 m c) :=
  (tail_of (W6 m c) main_v62_0 (by decide)).trans (sheaf_eq m c)

/-- The first result of @main: self term + aggregated messages + bias. -/
theorem result_out : W7 m c (Proc.devRef .tc main_v73)
    = val_main_v71 (F := Ideal) (a0 m c) (a1 m c) (a2 m c) (a3 m c) (a4 m c) (a5 m c) := by
  refine (tail_v73 (W6 m c)).trans ?_
  have h16 : W6 m c (Proc.devRef .tc main_v16) = dinvOf (srcOf (a1 m c)) :=
    (W6_of_ne m c main_v16 (by decide)).trans <| (mid_v16 (W2 m c)).trans (by rw [w2_v1])
  have h6 : W6 m c (Proc.devRef .tc main_v6) = val_main_v49 (F := Ideal) (a0 m c) (a4 m c) :=
    (W6_of_ne m c main_v6 (by decide)).trans <| (mid_of (W2 m c) main_v6 (by decide) (by decide) (by decide)).trans (xlin_eq m c)
  have h1 : W6 m c (Proc.devRef .tc main_v1) = srcOf (a1 m c) :=
    (W6_of_ne m c main_v1 (by decide)).trans <| (mid_of (W2 m c) main_v1 (by decide) (by decide) (by decide)).trans (w2_v1 m c)
  have h5 : W6 m c (Proc.devRef .tc main_arg5) = a5 m c :=
    (W6_of_ne m c main_arg5 (by decide)).trans <| (mid_of (W2 m c) main_arg5 (by decide) (by decide) (by decide)).trans <|
      (W2_of_ne m c main_arg5 (by decide)).trans <| (first_of (W0 m c) main_arg5 (by decide)).trans rfl
  rw [h16, h6, h1, h5, msgs_eq m c]
  exact out_eq (F := Ideal) (a0 m c) (a1 m c) (a4 m c) (a2 m c) (a3 m c) (a5 m c) _ rfl _ rfl _ (bias_row_eq m c)

end Cert.Bridge

end
-- ==== Proof.lean ====
/-
  The certificate of the sheaf-weighted message-passing kernel against its jnp reference.

  The kernel program is two pipelined kernel regions among host operations: a blocked matrix product x · W_lin
  (ten blocks of 5000 rows) and a fused edge kernel over 800000 edges in blocks of 4096 rows (the last block cut at
  the array's end) that computes the gates tanh(x[src] · W_top + x[dst] · W_bot + b) and the messages
  gate · (weight · x_lin[dst]); the degree normalisation, the row gathers and the scatter-add of the messages
  onto the nodes are host operations shared, operation for operation, with the reference.

  Frames.  The idealized kernel program's run names every buffer at every boundary (exact proof data; of a cut
  block only the rows inside the array are stated, and at the ideal instance those rows of a matrix product depend
  only on the same rows of its left operand).  The word-level program's frame forgets what the second region
  leaves in its two result arrays — at the word level a matrix product is opaque in its whole operand, the cut
  block's tail included — and carries them existentially through the last host stretch, which reads no index,
  branch or trip count from them.  The reference's frame is its run with the results dropped.

  Values.  At the ideal instance the blocked product is the whole product; the two 128-wide products are the
  256-wide product over the concatenated row (a finite sum split in two); and
  gate · (weight · projection) = (weight · gate) · projection by commutativity and associativity of the product
  of extended reals.  Everything else is the same operations on both sides.  No finiteness of the inputs is used.
  The ideal pass rewrote nothing, so the idealization claim is trivial.
-/
import proofs.«137016_j9826885173720_1_alg».proof.Defs
import proofs.«137016_j9826885173720_1_alg».proof.Proof.Gen.Kernel
import proofs.«137016_j9826885173720_1_alg».proof.Proof.Gen.KernelIdeal
import proofs.«137016_j9826885173720_1_alg».proof.Proof.Gen.ReferenceIdeal
import proofs.«137016_j9826885173720_1_alg».proof.Proof.Gen.Pre_finite_inputs
import proofs.«137016_j9826885173720_1_alg».proof.Proof.KFrame
import proofs.«137016_j9826885173720_1_alg».proof.Proof.KiRun
import proofs.«137016_j9826885173720_1_alg».proof.Proof.Bridge
import proofs.«137016_j9826885173720_1_alg».proof.Proof.RefRun
import proofs.«137016_j9826885173720_1_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end, faults nowhere and leaves its arguments as launched. -/
theorem frame_k : Cert.frame_Kernel := fun m ρ _ => Cert.Kernel.Hand.frame (F := Bits) m ρ

section KI
open Cert.KernelIdeal Cert.KernelIdeal.Gen Cert.KernelIdeal.Hand Cert.Bridge

/-- The idealized program's arguments, read off the last boundary of its run, are the launch contents. -/
theorem ki_args (m : (ℓ : Loc nD τ sig) → Buf (Elt Ideal) ℓ) (c : Dev nD) :
    W7 m c (Proc.devRef .tc main_arg0) = m ((c.tc : Thread nD τ).loc main_arg0) ∧
    W7 m c (Proc.devRef .tc main_arg1) = m ((c.tc : Thread nD τ).loc main_arg1) ∧
    W7 m c (Proc.devRef .tc main_arg2) = m ((c.tc : Thread nD τ).loc main_arg2) ∧
    W7 m c (Proc.devRef .tc main_arg3) = m ((c.tc : Thread nD τ).loc main_arg3) ∧
    W7 m c (Proc.devRef .tc main_arg4) = m ((c.tc : Thread nD τ).loc main_arg4) ∧
    W7 m c (Proc.devRef .tc main_arg5) = m ((c.tc : Thread nD τ).loc main_arg5) :=
  ⟨w7_arg m c main_arg0 (by decide) (by decide) (by decide) (by decide) (by decide) (by decide) (by decide),
   w7_arg m c main_arg1 (by decide) (by decide) (by decide) (by decide) (by decide) (by decide) (by decide),
   w7_arg m c main_arg2 (by decide) (by decide) (by decide) (by decide) (by decide) (by decide) (by decide),
   w7_arg m c main_arg3 (by decide) (by decide) (by decide) (by decide) (by decide) (by decide) (by decide),
   w7_arg m c main_arg4 (by decide) (by decide) (by decide) (by decide) (by decide) (by decide) (by decide),
   w7_arg m c main_arg5 (by decide) (by decide) (by decide) (by decide) (by decide) (by decide) (by decide)⟩

/-- The idealized program runs to the end, faults nowhere and leaves its arguments as launched. -/
theorem frame_ki : Cert.frame_KernelIdeal := fun m ρ _ =>
  (θ_run Cert.KernelIdeal.defs _ _).mono
    (fun r h c =>
      ⟨(h c _ (mem_uc main_arg0 (by decide))).trans (ki_args m c).1,
       (h c _ (mem_uc main_arg1 (by decide))).trans (ki_args m c).2.1,
       (h c _ (mem_uc main_arg2 (by decide))).trans (ki_args m c).2.2.1,
       (h c _ (mem_uc main_arg3 (by decide))).trans (ki_args m c).2.2.2.1,
       (h c _ (mem_uc main_arg4 (by decide))).trans (ki_args m c).2.2.2.2.1,
       (h c _ (mem_uc main_arg5 (by decide))).trans (ki_args m c).2.2.2.2.2⟩)
    (run_all m ρ)
end KI

/-- The reference runs to the end, faults nowhere and leaves its arguments as launched: its run, results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

section Alg
open Cert.KernelIdeal Cert.KernelIdeal.Gen Cert.KernelIdeal.Hand Cert.Bridge

/-- From memories agreeing on the arguments the two idealized programs end with equal results: the kernel program's
    two result buffers at the last boundary of its run are the reference's two stages of the same arguments. -/
theorem algebraic : Cert.algebraic_KernelIdeal_ReferenceIdeal := by
  intro m ρ m' ρ' _ hagree
  refine ⟨fun c => W7 m c (Proc.devRef .tc main_v73), fun c => W7 m c (Proc.devRef .tc main_v62_0), ?_, ?_⟩
  · exact (θ_run Cert.KernelIdeal.defs _ _).mono
      (fun r h c =>
        ⟨h c _ (mem_uc main_v73 (by decide)), h c _ (mem_uc main_v62_0 (by decide)),
         (h c _ (mem_uc main_arg0 (by decide))).trans (ki_args m c).1,
         (h c _ (mem_uc main_arg1 (by decide))).trans (ki_args m c).2.1,
         (h c _ (mem_uc main_arg2 (by decide))).trans (ki_args m c).2.2.1,
         (h c _ (mem_uc main_arg3 (by decide))).trans (ki_args m c).2.2.2.1,
         (h c _ (mem_uc main_arg4 (by decide))).trans (ki_args m c).2.2.2.2.1,
         (h c _ (mem_uc main_arg5 (by decide))).trans (ki_args m c).2.2.2.2.2⟩)
      (run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v71_eq, (hagree c).1, (hagree c).2.1, (hagree c).2.2.1, (hagree c).2.2.2.1,
        (hagree c).2.2.2.2.1, (hagree c).2.2.2.2.2]
      exact (result_out m c).symm
    · rw [(hagree c).1, (hagree c).2.1, (hagree c).2.2.1, (hagree c).2.2.2.1]
      exact (Cert.ReferenceIdeal.Read.val_main_v23_eq _ _ _ _).trans (result_sheaf m c).symm
end Alg

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
